-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x26x32 : Shape := ⟨3, ![16384, 26, 32]⟩
abbrev S_ : Shape := ⟨0, ![]⟩

class Facts : Prop where
  bcast_S_S16384x26x32 : S_.BroadcastsInDim S16384x26x32 (![] : Fin 0 → Fin S16384x26x32.rank)
  reducesTo_S16384x26x32_S_d0_1_2 : S16384x26x32.ReducesTo [0, 1, 2] S_
  h_S_ : 0 < S_.numel

variable [Facts]

def fn {F : FTy → Type} [FloatOps F] (main_arg0 : FVec F S16384x26x32 .f32) : IVec S_ 1 :=
  let main_v0 : FVec F S16384x26x32 .f32 := Host.absf main_arg0
  let main_cst : FVec F S_ .f32 := constant S_ .f32 0x7F800000#32
  let main_v1 : FVec F S16384x26x32 .f32 := broadcastInDim S16384x26x32 ![] bcast_S_S16384x26x32 main_cst
  let main_v2 : IVec S16384x26x32 1 := cmpf .olt main_v0 main_v1
  let main_c : IVec S_ 1 := constantI S_ 1 1#1
  let main_v3 : IVec S_ 1 := (fun x v => Host.reduce IntOp.andi x v reducesTo_S16384x26x32_S_d0_1_2 h_S_) main_v2 main_c
  main_v3
-- ==== Kernel.lean ====
abbrev S16384x26x32 : Shape := ⟨3, ![16384, 26, 32]⟩
abbrev S16384x832 : Shape := ⟨2, ![16384, 832]⟩
abbrev S16384x10400 : Shape := ⟨2, ![16384, 10400]⟩
abbrev S512x832 : Shape := ⟨2, ![512, 832]⟩
abbrev S512x10400 : Shape := ⟨2, ![512, 10400]⟩
abbrev S512x32 : Shape := ⟨2, ![512, 32]⟩
abbrev S16384x325x32 : Shape := ⟨3, ![16384, 325, 32]⟩

abbrev nBuf : Space → Nat
  | .hbm => 4
  | .vmem => 4
  | .smem => 0
  | _ => 0

abbrev bufTy : (tb : Table) → Fin (tcTables nBuf tb) → BufTy
  | .hbm, ⟨0, _⟩ => ⟨S16384x26x32, .f32⟩
  | .hbm, ⟨1, _⟩ => ⟨S16384x832, .f32⟩
  | .hbm, ⟨2, _⟩ => ⟨S16384x10400, .f32⟩
  | .hbm, ⟨3, _⟩ => ⟨S16384x325x32, .f32⟩
  | .local _ .vmem, ⟨0, _⟩ => ⟨S512x832, .f32⟩
  | .local _ .vmem, ⟨1, _⟩ => ⟨S512x832, .f32⟩
  | .local _ .vmem, ⟨2, _⟩ => ⟨S512x10400, .f32⟩
  | .local _ .vmem, ⟨3, _⟩ => ⟨S512x10400, .f32⟩
  | _, _ => ⟨S16384x26x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x832 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x10400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16384x26x32_S16384x832 : S16384x26x32.ShapeCasts S16384x832
  inb_S512x832_S512x832_0_0 : ∀ a, (![0, 0] : Fin 2 → Nat) a + S512x832.size a ≤ S512x832.size a
  h_S512x832 : 0 < S512x832.numel
  shapeCasts_S512x832_S512x832 : S512x832.ShapeCasts S512x832
  slices_S512x832_o0_0_S512x32 : S512x832.Slices ![0, 0] S512x32
  slices_S512x832_o0_32_S512x32 : S512x832.Slices ![0, 32] S512x32
  inb_S512x10400_S512x32_0_0 : ∀ a, (![0, 0] : Fin 2 → Nat) a + S512x32.size a ≤ S512x10400.size a
  h_S512x32 : 0 < S512x32.numel
  slices_S512x832_o0_64_S512x32 : S512x832.Slices ![0, 64] S512x32
  inb_S512x10400_S512x32_0_32 : ∀ a, (![0, 32] : Fin 2 → Nat) a + S512x32.size a ≤ S512x10400.size a
  slices_S512x832_o0_96_S512x32 : S512x832.Slices ![0, 96] S512x32
  inb_S512x10400_S512x32_0_64 : ∀ a, (![0, 64] : Fin 2 → Nat) a + S512x32.size a ≤ S512x10400.size a
  slices_S512x832_o0_128_S512x32 : S512x832.Slices ![0, 128] S512x32
  inb_S512x10400_S512x32_0_96 : ∀ a, (![0, 96] : Fin 2 → Nat) a + S512x32.size a ≤ S512x10400.size a
  slices_S512x832_o0_160_S512x32 : S512x832.Slices ![0, 160] S512x32
  inb_S512x10400_S512x32_0_128 : ∀ a, (![0, 128] : Fin 2 → Nat) a + S512x32.size a ≤ S512x10400.size a
  slices_S512x832_o0_192_S512x32 : S512x832.Slices ![0, 192] S512x32
  inb_S512x10400_S512x32_0_160 : ∀ a, (![0, 160] : Fin 2 → Nat) a + S512x32.size a ≤ S512x10400.size a
  slices_S512x832_o0_224_S512x32 : S512x832.Slices ![0, 224] S512x32
  inb_S512x10400_S512x32_0_192 : ∀ a, (![0, 192] : Fin 2 → Nat) a + S512x32.size a ≤ S512x10400.size a
  slices_S512x832_o0_256_S512x32 : S512x832.Slices ![0, 256] S512x32
  inb_S512x10400_S512x32_0_224 : ∀ a, (![0, 224] : Fin 2 → Nat) a + S512x32.size a ≤ S512x10400.size a
  slices_S512x832_o0_288_S512x32 : S512x832.Slices ![0, 288] S512x32
  inb_S512x10400_S512x32_0_256 : ∀ a, (![0, 256] : Fin 2 → Nat) a + S512x32.size a ≤ S512x10400.size a
  slices_S512x832_o0_320_S512x32 : S512x832.Slices ![0, 320] S512x32
  inb_S512x10400_S512x32_0_288 : ∀ a, (![0, 288] : Fin 2 → Nat) a + S512x32.size a ≤ S512x10400.size a
  slices_S512x832_o0_352_S512x32 : S512x832.Slices ![0, 352] S512x32
  inb_S512x10400_S512x32_0_320 : ∀ a, (![0, 320] : Fin 2 → Nat) a + S512x32.size a ≤ S512x10400.size a
  slices_S512x832_o0_384_S512x32 : S512x832.Slices ![0, 384] S512x32
  inb_S512x10400_S512x32_0_352 : ∀ a, (![0, 352] : Fin 2 → Nat) a + S512x32.size a ≤ S512x10400.size a
  slices_S512x832_o0_416_S512x32 : S512x832.Slices ![0, 416] S512x32
  inb_S512x10400_S512x32_0_384 : ∀ a, (![0, 384] : Fin 2 → Nat) a + S512x32.size a ≤ S512x10400.size a
  slices_S512x832_o0_448_S512x32 : S512x832.Slices ![0, 448] S512x32
  inb_S512x10400_S512x32_0_416 : ∀ a, (![0, 416] : Fin 2 → Nat) a + S512x32.size a ≤ S512x10400.size a
  slices_S512x832_o0_480_S512x32 : S512x832.Slices ![0, 480] S512x32
  inb_S512x10400_S512x32_0_448 : ∀ a, (![0, 448] : Fin 2 → Nat) a + S512x32.size a ≤ S512x10400.size a
  slices_S512x832_o0_512_S512x32 : S512x832.Slices ![0, 512] S512x32
  inb_S512x10400_S512x32_0_480 : ∀ a, (![0, 480] : Fin 2 → Nat) a + S512x32.size a ≤ S512x10400.size a
  slices_S512x832_o0_544_S512x32 : S512x832.Slices ![0, 544] S512x32
  inb_S512x10400_S512x32_0_512 : ∀ a, (![0, 512] : Fin 2 → Nat) a + S512x32.size a ≤ S512x10400.size a
  slices_S512x832_o0_576_S512x32 : S512x832.Slices ![0, 576] S512x32
  inb_S512x10400_S512x32_0_544 : ∀ a, (![0, 544] : Fin 2 → Nat) a + S512x32.size a ≤ S512x10400.size a
  slices_S512x832_o0_608_S512x32 : S512x832.Slices ![0, 608] S512x32
  inb_S512x10400_S512x32_0_576 : ∀ a, (![0, 576] : Fin 2 → Nat) a + S512x32.size a ≤ S512x10400.size a
  slices_S512x832_o0_640_S512x32 : S512x832.Slices ![0, 640] S512x32
  inb_S512x10400_S512x32_0_608 : ∀ a, (![0, 608] : Fin 2 → Nat) a + S512x32.size a ≤ S512x10400.size a
  slices_S512x832_o0_672_S512x32 : S512x832.Slices ![0, 672] S512x32
  inb_S512x10400_S512x32_0_640 : ∀ a, (![0, 640] : Fin 2 → Nat) a + S512x32.size a ≤ S512x10400.size a
  slices_S512x832_o0_704_S512x32 : S512x832.Slices ![0, 704] S512x32
  inb_S512x10400_S512x32_0_672 : ∀ a, (![0, 672] : Fin 2 → Nat) a + S512x32.size a ≤ S512x10400.size a
  slices_S512x832_o0_736_S512x32 : S512x832.Slices ![0, 736] S512x32
  inb_S512x10400_S512x32_0_704 : ∀ a, (![0, 704] : Fin 2 → Nat) a + S512x32.size a ≤ S512x10400.size a
  slices_S512x832_o0_768_S512x32 : S512x832.Slices ![0, 768] S512x32
  inb_S512x10400_S512x32_0_736 : ∀ a, (![0, 736] : Fin 2 → Nat) a + S512x32.size a ≤ S512x10400.size a
  slices_S512x832_o0_800_S512x32 : S512x832.Slices ![0, 800] S512x32
  inb_S512x10400_S512x32_0_768 : ∀ a, (![0, 768] : Fin 2 → Nat) a + S512x32.size a ≤ S512x10400.size a
  inb_S512x10400_S512x32_0_800 : ∀ a, (![0, 800] : Fin 2 → Nat) a + S512x32.size a ≤ S512x10400.size a
  inb_S512x10400_S512x32_0_832 : ∀ a, (![0, 832] : Fin 2 → Nat) a + S512x32.size a ≤ S512x10400.size a
  inb_S512x10400_S512x32_0_864 : ∀ a, (![0, 864] : Fin 2 → Nat) a + S512x32.size a ≤ S512x10400.size a
  inb_S512x10400_S512x32_0_896 : ∀ a, (![0, 896] : Fin 2 → Nat) a + S512x32.size a ≤ S512x10400.size a
  inb_S512x10400_S512x32_0_928 : ∀ a, (![0, 928] : Fin 2 → Nat) a + S512x32.size a ≤ S512x10400.size a
  inb_S512x10400_S512x32_0_960 : ∀ a, (![0, 960] : Fin 2 → Nat) a + S512x32.size a ≤ S512x10400.size a
  inb_S512x10400_S512x32_0_992 : ∀ a, (![0, 992] : Fin 2 → Nat) a + S512x32.size a ≤ S512x10400.size a
  inb_S512x10400_S512x32_0_1024 : ∀ a, (![0, 1024] : Fin 2 → Nat) a + S512x32.size a ≤ S512x10400.size a
  inb_S512x10400_S512x32_0_1056 : ∀ a, (![0, 1056] : Fin 2 → Nat) a + S512x32.size a ≤ S512x10400.size a
  inb_S512x10400_S512x32_0_1088 : ∀ a, (![0, 1088] : Fin 2 → Nat) a + S512x32.size a ≤ S512x10400.size a
  inb_S512x10400_S512x32_0_1120 : ∀ a, (![0, 1120] : Fin 2 → Nat) a + S512x32.size a ≤ S512x10400.size a
  inb_S512x10400_S512x32_0_1152 : ∀ a, (![0, 1152] : Fin 2 → Nat) a + S512x32.size a ≤ S512x10400.size a
  inb_S512x10400_S512x32_0_1184 : ∀ a, (![0, 1184] : Fin 2 → Nat) a + S512x32.size a ≤ S512x10400.size a
  inb_S512x10400_S512x32_0_1216 : ∀ a, (![0, 1216] : Fin 2 → Nat) a + S512x32.size a ≤ S512x10400.size a
  inb_S512x10400_S512x32_0_1248 : ∀ a, (![0, 1248] : Fin 2 → Nat) a + S512x32.size a ≤ S512x10400.size a
  inb_S512x10400_S512x32_0_1280 : ∀ a, (![0, 1280] : Fin 2 → Nat) a + S512x32.size a ≤ S512x10400.size a
  inb_S512x10400_S512x32_0_1312 : ∀ a, (![0, 1312] : Fin 2 → Nat) a + S512x32.size a ≤ S512x10400.size a
  inb_S512x10400_S512x32_0_1344 : ∀ a, (![0, 1344] : Fin 2 → Nat) a + S512x32.size a ≤ S512x10400.size a
  inb_S512x10400_S512x32_0_1376 : ∀ a, (![0, 1376] : Fin 2 → Nat) a + S512x32.size a ≤ S512x10400.size a
  inb_S512x10400_S512x32_0_1408 : ∀ a, (![0, 1408] : Fin 2 → Nat) a + S512x32.size a ≤ S512x10400.size a
  inb_S512x10400_S512x32_0_1440 : ∀ a, (![0, 1440] : Fin 2 → Nat) a + S512x32.size a ≤ S512x10400.size a
  inb_S512x10400_S512x32_0_1472 : ∀ a, (![0, 1472] : Fin 2 → Nat) a + S512x32.size a ≤ S512x10400.size a
  inb_S512x10400_S512x32_0_1504 : ∀ a, (![0, 1504] : Fin 2 → Nat) a + S512x32.size a ≤ S512x10400.size a
  inb_S512x10400_S512x32_0_1536 : ∀ a, (![0, 1536] : Fin 2 → Nat) a + S512x32.size a ≤ S512x10400.size a
  inb_S512x10400_S512x32_0_1568 : ∀ a, (![0, 1568] : Fin 2 → Nat) a + S512x32.size a ≤ S512x10400.size a
  inb_S512x10400_S512x32_0_1600 : ∀ a, (![0, 1600] : Fin 2 → Nat) a + S512x32.size a ≤ S512x10400.size a
  inb_S512x10400_S512x32_0_1632 : ∀ a, (![0, 1632] : Fin 2 → Nat) a + S512x32.size a ≤ S512x10400.size a
  inb_S512x10400_S512x32_0_1664 : ∀ a, (![0, 1664] : Fin 2 → Nat) a + S512x32.size a ≤ S512x10400.size a
  inb_S512x10400_S512x32_0_1696 : ∀ a, (![0, 1696] : Fin 2 → Nat) a + S512x32.size a ≤ S512x10400.size a
  inb_S512x10400_S512x32_0_1728 : ∀ a, (![0, 1728] : Fin 2 → Nat) a + S512x32.size a ≤ S512x10400.size a
  inb_S512x10400_S512x32_0_1760 : ∀ a, (![0, 1760] : Fin 2 → Nat) a + S512x32.size a ≤ S512x10400.size a
  inb_S512x10400_S512x32_0_1792 : ∀ a, (![0, 1792] : Fin 2 → Nat) a + S512x32.size a ≤ S512x10400.size a
  inb_S512x10400_S512x32_0_1824 : ∀ a, (![0, 1824] : Fin 2 → Nat) a + S512x32.size a ≤ S512x10400.size a
  inb_S512x10400_S512x32_0_1856 : ∀ a, (![0, 1856] : Fin 2 → Nat) a + S512x32.size a ≤ S512x10400.size a
  inb_S512x10400_S512x32_0_1888 : ∀ a, (![0, 1888] : Fin 2 → Nat) a + S512x32.size a ≤ S512x10400.size a
  inb_S512x10400_S512x32_0_1920 : ∀ a, (![0, 1920] : Fin 2 → Nat) a + S512x32.size a ≤ S512x10400.size a
  inb_S512x10400_S512x32_0_1952 : ∀ a, (![0, 1952] : Fin 2 → Nat) a + S512x32.size a ≤ S512x10400.size a
  inb_S512x10400_S512x32_0_1984 : ∀ a, (![0, 1984] : Fin 2 → Nat) a + S512x32.size a ≤ S512x10400.size a
  inb_S512x10400_S512x32_0_2016 : ∀ a, (![0, 2016] : Fin 2 → Nat) a + S512x32.size a ≤ S512x10400.size a
  inb_S512x10400_S512x32_0_2048 : ∀ a, (![0, 2048] : Fin 2 → Nat) a + S512x32.size a ≤ S512x10400.size a
  inb_S512x10400_S512x32_0_2080 : ∀ a, (![0, 2080] : Fin 2 → Nat) a + S512x32.size a ≤ S512x10400.size a
  inb_S512x10400_S512x32_0_2112 : ∀ a, (![0, 2112] : Fin 2 → Nat) a + S512x32.size a ≤ S512x10400.size a
  inb_S512x10400_S512x32_0_2144 : ∀ a, (![0, 2144] : Fin 2 → Nat) a + S512x32.size a ≤ S512x10400.size a
  inb_S512x10400_S512x32_0_2176 : ∀ a, (![0, 2176] : Fin 2 → Nat) a + S512x32.size a ≤ S512x10400.size a
  inb_S512x10400_S512x32_0_2208 : ∀ a, (![0, 2208] : Fin 2 → Nat) a + S512x32.size a ≤ S512x10400.size a
  inb_S512x10400_S512x32_0_2240 : ∀ a, (![0, 2240] : Fin 2 → Nat) a + S512x32.size a ≤ S512x10400.size a
  inb_S512x10400_S512x32_0_2272 : ∀ a, (![0, 2272] : Fin 2 → Nat) a + S512x32.size a ≤ S512x10400.size a
  inb_S512x10400_S512x32_0_2304 : ∀ a, (![0, 2304] : Fin 2 → Nat) a + S512x32.size a ≤ S512x10400.size a
  inb_S512x10400_S512x32_0_2336 : ∀ a, (![0, 2336] : Fin 2 → Nat) a + S512x32.size a ≤ S512x10400.size a
  inb_S512x10400_S512x32_0_2368 : ∀ a, (![0, 2368] : Fin 2 → Nat) a + S512x32.size a ≤ S512x10400.size a
  inb_S512x10400_S512x32_0_2400 : ∀ a, (![0, 2400] : Fin 2 → Nat) a + S512x32.size a ≤ S512x10400.size a
  inb_S512x10400_S512x32_0_2432 : ∀ a, (![0, 2432] : Fin 2 → Nat) a + S512x32.size a ≤ S512x10400.size a
  inb_S512x10400_S512x32_0_2464 : ∀ a, (![0, 2464] : Fin 2 → Nat) a + S512x32.size a ≤ S512x10400.size a
  inb_S512x10400_S512x32_0_2496 : ∀ a, (![0, 2496] : Fin 2 → Nat) a + S512x32.size a ≤ S512x10400.size a
  inb_S512x10400_S512x32_0_2528 : ∀ a, (![0, 2528] : Fin 2 → Nat) a + S512x32.size a ≤ S512x10400.size a
  inb_S512x10400_S512x32_0_2560 : ∀ a, (![0, 2560] : Fin 2 → Nat) a + S512x32.size a ≤ S512x10400.size a
  inb_S512x10400_S512x32_0_2592 : ∀ a, (![0, 2592] : Fin 2 → Nat) a + S512x32.size a ≤ S512x10400.size a
  inb_S512x10400_S512x32_0_2624 : ∀ a, (![0, 2624] : Fin 2 → Nat) a + S512x32.size a ≤ S512x10400.size a
  inb_S512x10400_S512x32_0_2656 : ∀ a, (![0, 2656] : Fin 2 → Nat) a + S512x32.size a ≤ S512x10400.size a
  inb_S512x10400_S512x32_0_2688 : ∀ a, (![0, 2688] : Fin 2 → Nat) a + S512x32.size a ≤ S512x10400.size a
  inb_S512x10400_S512x32_0_2720 : ∀ a, (![0, 2720] : Fin 2 → Nat) a + S512x32.size a ≤ S512x10400.size a
  inb_S512x10400_S512x32_0_2752 : ∀ a, (![0, 2752] : Fin 2 → Nat) a + S512x32.size a ≤ S512x10400.size a
  inb_S512x10400_S512x32_0_2784 : ∀ a, (![0, 2784] : Fin 2 → Nat) a + S512x32.size a ≤ S512x10400.size a
  inb_S512x10400_S512x32_0_2816 : ∀ a, (![0, 2816] : Fin 2 → Nat) a + S512x32.size a ≤ S512x10400.size a
  inb_S512x10400_S512x32_0_2848 : ∀ a, (![0, 2848] : Fin 2 → Nat) a + S512x32.size a ≤ S512x10400.size a
  inb_S512x10400_S512x32_0_2880 : ∀ a, (![0, 2880] : Fin 2 → Nat) a + S512x32.size a ≤ S512x10400.size a
  inb_S512x10400_S512x32_0_2912 : ∀ a, (![0, 2912] : Fin 2 → Nat) a + S512x32.size a ≤ S512x10400.size a
  inb_S512x10400_S512x32_0_2944 : ∀ a, (![0, 2944] : Fin 2 → Nat) a + S512x32.size a ≤ S512x10400.size a
  inb_S512x10400_S512x32_0_2976 : ∀ a, (![0, 2976] : Fin 2 → Nat) a + S512x32.size a ≤ S512x10400.size a
  inb_S512x10400_S512x32_0_3008 : ∀ a, (![0, 3008] : Fin 2 → Nat) a + S512x32.size a ≤ S512x10400.size a
  inb_S512x10400_S512x32_0_3040 : ∀ a, (![0, 3040] : Fin 2 → Nat) a + S512x32.size a ≤ S512x10400.size a
  inb_S512x10400_S512x32_0_3072 : ∀ a, (![0, 3072] : Fin 2 → Nat) a + S512x32.size a ≤ S512x10400.size a
  inb_S512x10400_S512x32_0_3104 : ∀ a, (![0, 3104] : Fin 2 → Nat) a + S512x32.size a ≤ S512x10400.size a
  inb_S512x10400_S512x32_0_3136 : ∀ a, (![0, 3136] : Fin 2 → Nat) a + S512x32.size a ≤ S512x10400.size a
  inb_S512x10400_S512x32_0_3168 : ∀ a, (![0, 3168] : Fin 2 → Nat) a + S512x32.size a ≤ S512x10400.size a
  inb_S512x10400_S512x32_0_3200 : ∀ a, (![0, 3200] : Fin 2 → Nat) a + S512x32.size a ≤ S512x10400.size a
  inb_S512x10400_S512x32_0_3232 : ∀ a, (![0, 3232] : Fin 2 → Nat) a + S512x32.size a ≤ S512x10400.size a
  inb_S512x10400_S512x32_0_3264 : ∀ a, (![0, 3264] : Fin 2 → Nat) a + S512x32.size a ≤ S512x10400.size a
  inb_S512x10400_S512x32_0_3296 : ∀ a, (![0, 3296] : Fin 2 → Nat) a + S512x32.size a ≤ S512x10400.size a
  inb_S512x10400_S512x32_0_3328 : ∀ a, (![0, 3328] : Fin 2 → Nat) a + S512x32.size a ≤ S512x10400.size a
  inb_S512x10400_S512x32_0_3360 : ∀ a, (![0, 3360] : Fin 2 → Nat) a + S512x32.size a ≤ S512x10400.size a
  inb_S512x10400_S512x32_0_3392 : ∀ a, (![0, 3392] : Fin 2 → Nat) a + S512x32.size a ≤ S512x10400.size a
  inb_S512x10400_S512x32_0_3424 : ∀ a, (![0, 3424] : Fin 2 → Nat) a + S512x32.size a ≤ S512x10400.size a
  inb_S512x10400_S512x32_0_3456 : ∀ a, (![0, 3456] : Fin 2 → Nat) a + S512x32.size a ≤ S512x10400.size a
  inb_S512x10400_S512x32_0_3488 : ∀ a, (![0, 3488] : Fin 2 → Nat) a + S512x32.size a ≤ S512x10400.size a
  inb_S512x10400_S512x32_0_3520 : ∀ a, (![0, 3520] : Fin 2 → Nat) a + S512x32.size a ≤ S512x10400.size a
  inb_S512x10400_S512x32_0_3552 : ∀ a, (![0, 3552] : Fin 2 → Nat) a + S512x32.size a ≤ S512x10400.size a
  inb_S512x10400_S512x32_0_3584 : ∀ a, (![0, 3584] : Fin 2 → Nat) a + S512x32.size a ≤ S512x10400.size a
  inb_S512x10400_S512x32_0_3616 : ∀ a, (![0, 3616] : Fin 2 → Nat) a + S512x32.size a ≤ S512x10400.size a
  inb_S512x10400_S512x32_0_3648 : ∀ a, (![0, 3648] : Fin 2 → Nat) a + S512x32.size a ≤ S512x10400.size a
  inb_S512x10400_S512x32_0_3680 : ∀ a, (![0, 3680] : Fin 2 → Nat) a + S512x32.size a ≤ S512x10400.size a
  inb_S512x10400_S512x32_0_3712 : ∀ a, (![0, 3712] : Fin 2 → Nat) a + S512x32.size a ≤ S512x10400.size a
  inb_S512x10400_S512x32_0_3744 : ∀ a, (![0, 3744] : Fin 2 → Nat) a + S512x32.size a ≤ S512x10400.size a
  inb_S512x10400_S512x32_0_3776 : ∀ a, (![0, 3776] : Fin 2 → Nat) a + S512x32.size a ≤ S512x10400.size a
  inb_S512x10400_S512x32_0_3808 : ∀ a, (![0, 3808] : Fin 2 → Nat) a + S512x32.size a ≤ S512x10400.size a
  inb_S512x10400_S512x32_0_3840 : ∀ a, (![0, 3840] : Fin 2 → Nat) a + S512x32.size a ≤ S512x10400.size a
  inb_S512x10400_S512x32_0_3872 : ∀ a, (![0, 3872] : Fin 2 → Nat) a + S512x32.size a ≤ S512x10400.size a
  inb_S512x10400_S512x32_0_3904 : ∀ a, (![0, 3904] : Fin 2 → Nat) a + S512x32.size a ≤ S512x10400.size a
  inb_S512x10400_S512x32_0_3936 : ∀ a, (![0, 3936] : Fin 2 → Nat) a + S512x32.size a ≤ S512x10400.size a
  inb_S512x10400_S512x32_0_3968 : ∀ a, (![0, 3968] : Fin 2 → Nat) a + S512x32.size a ≤ S512x10400.size a
  inb_S512x10400_S512x32_0_4000 : ∀ a, (![0, 4000] : Fin 2 → Nat) a + S512x32.size a ≤ S512x10400.size a
  inb_S512x10400_S512x32_0_4032 : ∀ a, (![0, 4032] : Fin 2 → Nat) a + S512x32.size a ≤ S512x10400.size a
  inb_S512x10400_S512x32_0_4064 : ∀ a, (![0, 4064] : Fin 2 → Nat) a + S512x32.size a ≤ S512x10400.size a
  inb_S512x10400_S512x32_0_4096 : ∀ a, (![0, 4096] : Fin 2 → Nat) a + S512x32.size a ≤ S512x10400.size a
  inb_S512x10400_S512x32_0_4128 : ∀ a, (![0, 4128] : Fin 2 → Nat) a + S512x32.size a ≤ S512x10400.size a
  inb_S512x10400_S512x32_0_4160 : ∀ a, (![0, 4160] : Fin 2 → Nat) a + S512x32.size a ≤ S512x10400.size a
  inb_S512x10400_S512x32_0_4192 : ∀ a, (![0, 4192] : Fin 2 → Nat) a + S512x32.size a ≤ S512x10400.size a
  inb_S512x10400_S512x32_0_4224 : ∀ a, (![0, 4224] : Fin 2 → Nat) a + S512x32.size a ≤ S512x10400.size a
  inb_S512x10400_S512x32_0_4256 : ∀ a, (![0, 4256] : Fin 2 → Nat) a + S512x32.size a ≤ S512x10400.size a
  inb_S512x10400_S512x32_0_4288 : ∀ a, (![0, 4288] : Fin 2 → Nat) a + S512x32.size a ≤ S512x10400.size a
  inb_S512x10400_S512x32_0_4320 : ∀ a, (![0, 4320] : Fin 2 → Nat) a + S512x32.size a ≤ S512x10400.size a
  inb_S512x10400_S512x32_0_4352 : ∀ a, (![0, 4352] : Fin 2 → Nat) a + S512x32.size a ≤ S512x10400.size a
  inb_S512x10400_S512x32_0_4384 : ∀ a, (![0, 4384] : Fin 2 → Nat) a + S512x32.size a ≤ S512x10400.size a
  inb_S512x10400_S512x32_0_4416 : ∀ a, (![0, 4416] : Fin 2 → Nat) a + S512x32.size a ≤ S512x10400.size a
  inb_S512x10400_S512x32_0_4448 : ∀ a, (![0, 4448] : Fin 2 → Nat) a + S512x32.size a ≤ S512x10400.size a
  inb_S512x10400_S512x32_0_4480 : ∀ a, (![0, 4480] : Fin 2 → Nat) a + S512x32.size a ≤ S512x10400.size a
  inb_S512x10400_S512x32_0_4512 : ∀ a, (![0, 4512] : Fin 2 → Nat) a + S512x32.size a ≤ S512x10400.size a
  inb_S512x10400_S512x32_0_4544 : ∀ a, (![0, 4544] : Fin 2 → Nat) a + S512x32.size a ≤ S512x10400.size a
  inb_S512x10400_S512x32_0_4576 : ∀ a, (![0, 4576] : Fin 2 → Nat) a + S512x32.size a ≤ S512x10400.size a
  inb_S512x10400_S512x32_0_4608 : ∀ a, (![0, 4608] : Fin 2 → Nat) a + S512x32.size a ≤ S512x10400.size a
  inb_S512x10400_S512x32_0_4640 : ∀ a, (![0, 4640] : Fin 2 → Nat) a + S512x32.size a ≤ S512x10400.size a
  inb_S512x10400_S512x32_0_4672 : ∀ a, (![0, 4672] : Fin 2 → Nat) a + S512x32.size a ≤ S512x10400.size a
  inb_S512x10400_S512x32_0_4704 : ∀ a, (![0, 4704] : Fin 2 → Nat) a + S512x32.size a ≤ S512x10400.size a
  inb_S512x10400_S512x32_0_4736 : ∀ a, (![0, 4736] : Fin 2 → Nat) a + S512x32.size a ≤ S512x10400.size a
  inb_S512x10400_S512x32_0_4768 : ∀ a, (![0, 4768] : Fin 2 → Nat) a + S512x32.size a ≤ S512x10400.size a
  inb_S512x10400_S512x32_0_4800 : ∀ a, (![0, 4800] : Fin 2 → Nat) a + S512x32.size a ≤ S512x10400.size a
  inb_S512x10400_S512x32_0_4832 : ∀ a, (![0, 4832] : Fin 2 → Nat) a + S512x32.size a ≤ S512x10400.size a
  inb_S512x10400_S512x32_0_4864 : ∀ a, (![0, 4864] : Fin 2 → Nat) a + S512x32.size a ≤ S512x10400.size a
  inb_S512x10400_S512x32_0_4896 : ∀ a, (![0, 4896] : Fin 2 → Nat) a + S512x32.size a ≤ S512x10400.size a
  inb_S512x10400_S512x32_0_4928 : ∀ a, (![0, 4928] : Fin 2 → Nat) a + S512x32.size a ≤ S512x10400.size a
  inb_S512x10400_S512x32_0_4960 : ∀ a, (![0, 4960] : Fin 2 → Nat) a + S512x32.size a ≤ S512x10400.size a
  inb_S512x10400_S512x32_0_4992 : ∀ a, (![0, 4992] : Fin 2 → Nat) a + S512x32.size a ≤ S512x10400.size a
  inb_S512x10400_S512x32_0_5024 : ∀ a, (![0, 5024] : Fin 2 → Nat) a + S512x32.size a ≤ S512x10400.size a
  inb_S512x10400_S512x32_0_5056 : ∀ a, (![0, 5056] : Fin 2 → Nat) a + S512x32.size a ≤ S512x10400.size a
  inb_S512x10400_S512x32_0_5088 : ∀ a, (![0, 5088] : Fin 2 → Nat) a + S512x32.size a ≤ S512x10400.size a
  inb_S512x10400_S512x32_0_5120 : ∀ a, (![0, 5120] : Fin 2 → Nat) a + S512x32.size a ≤ S512x10400.size a
  inb_S512x10400_S512x32_0_5152 : ∀ a, (![0, 5152] : Fin 2 → Nat) a + S512x32.size a ≤ S512x10400.size a
  inb_S512x10400_S512x32_0_5184 : ∀ a, (![0, 5184] : Fin 2 → Nat) a + S512x32.size a ≤ S512x10400.size a
  inb_S512x10400_S512x32_0_5216 : ∀ a, (![0, 5216] : Fin 2 → Nat) a + S512x32.size a ≤ S512x10400.size a
  inb_S512x10400_S512x32_0_5248 : ∀ a, (![0, 5248] : Fin 2 → Nat) a + S512x32.size a ≤ S512x10400.size a
  inb_S512x10400_S512x32_0_5280 : ∀ a, (![0, 5280] : Fin 2 → Nat) a + S512x32.size a ≤ S512x10400.size a
  inb_S512x10400_S512x32_0_5312 : ∀ a, (![0, 5312] : Fin 2 → Nat) a + S512x32.size a ≤ S512x10400.size a
  inb_S512x10400_S512x32_0_5344 : ∀ a, (![0, 5344] : Fin 2 → Nat) a + S512x32.size a ≤ S512x10400.size a
  inb_S512x10400_S512x32_0_5376 : ∀ a, (![0, 5376] : Fin 2 → Nat) a + S512x32.size a ≤ S512x10400.size a
  inb_S512x10400_S512x32_0_5408 : ∀ a, (![0, 5408] : Fin 2 → Nat) a + S512x32.size a ≤ S512x10400.size a
  inb_S512x10400_S512x32_0_5440 : ∀ a, (![0, 5440] : Fin 2 → Nat) a + S512x32.size a ≤ S512x10400.size a
  inb_S512x10400_S512x32_0_5472 : ∀ a, (![0, 5472] : Fin 2 → Nat) a + S512x32.size a ≤ S512x10400.size a
  inb_S512x10400_S512x32_0_5504 : ∀ a, (![0, 5504] : Fin 2 → Nat) a + S512x32.size a ≤ S512x10400.size a
  inb_S512x10400_S512x32_0_5536 : ∀ a, (![0, 5536] : Fin 2 → Nat) a + S512x32.size a ≤ S512x10400.size a
  inb_S512x10400_S512x32_0_5568 : ∀ a, (![0, 5568] : Fin 2 → Nat) a + S512x32.size a ≤ S512x10400.size a
  inb_S512x10400_S512x32_0_5600 : ∀ a, (![0, 5600] : Fin 2 → Nat) a + S512x32.size a ≤ S512x10400.size a
  inb_S512x10400_S512x32_0_5632 : ∀ a, (![0, 5632] : Fin 2 → Nat) a + S512x32.size a ≤ S512x10400.size a
  inb_S512x10400_S512x32_0_5664 : ∀ a, (![0, 5664] : Fin 2 → Nat) a + S512x32.size a ≤ S512x10400.size a
  inb_S512x10400_S512x32_0_5696 : ∀ a, (![0, 5696] : Fin 2 → Nat) a + S512x32.size a ≤ S512x10400.size a
  inb_S512x10400_S512x32_0_5728 : ∀ a, (![0, 5728] : Fin 2 → Nat) a + S512x32.size a ≤ S512x10400.size a
  inb_S512x10400_S512x32_0_5760 : ∀ a, (![0, 5760] : Fin 2 → Nat) a + S512x32.size a ≤ S512x10400.size a
  inb_S512x10400_S512x32_0_5792 : ∀ a, (![0, 5792] : Fin 2 → Nat) a + S512x32.size a ≤ S512x10400.size a
  inb_S512x10400_S512x32_0_5824 : ∀ a, (![0, 5824] : Fin 2 → Nat) a + S512x32.size a ≤ S512x10400.size a
  inb_S512x10400_S512x32_0_5856 : ∀ a, (![0, 5856] : Fin 2 → Nat) a + S512x32.size a ≤ S512x10400.size a
  inb_S512x10400_S512x32_0_5888 : ∀ a, (![0, 5888] : Fin 2 → Nat) a + S512x32.size a ≤ S512x10400.size a
  inb_S512x10400_S512x32_0_5920 : ∀ a, (![0, 5920] : Fin 2 → Nat) a + S512x32.size a ≤ S512x10400.size a
  inb_S512x10400_S512x32_0_5952 : ∀ a, (![0, 5952] : Fin 2 → Nat) a + S512x32.size a ≤ S512x10400.size a
  inb_S512x10400_S512x32_0_5984 : ∀ a, (![0, 5984] : Fin 2 → Nat) a + S512x32.size a ≤ S512x10400.size a
  inb_S512x10400_S512x32_0_6016 : ∀ a, (![0, 6016] : Fin 2 → Nat) a + S512x32.size a ≤ S512x10400.size a
  inb_S512x10400_S512x32_0_6048 : ∀ a, (![0, 6048] : Fin 2 → Nat) a + S512x32.size a ≤ S512x10400.size a
  inb_S512x10400_S512x32_0_6080 : ∀ a, (![0, 6080] : Fin 2 → Nat) a + S512x32.size a ≤ S512x10400.size a
  inb_S512x10400_S512x32_0_6112 : ∀ a, (![0, 6112] : Fin 2 → Nat) a + S512x32.size a ≤ S512x10400.size a
  inb_S512x10400_S512x32_0_6144 : ∀ a, (![0, 6144] : Fin 2 → Nat) a + S512x32.size a ≤ S512x10400.size a
  inb_S512x10400_S512x32_0_6176 : ∀ a, (![0, 6176] : Fin 2 → Nat) a + S512x32.size a ≤ S512x10400.size a
  inb_S512x10400_S512x32_0_6208 : ∀ a, (![0, 6208] : Fin 2 → Nat) a + S512x32.size a ≤ S512x10400.size a
  inb_S512x10400_S512x32_0_6240 : ∀ a, (![0, 6240] : Fin 2 → Nat) a + S512x32.size a ≤ S512x10400.size a
  inb_S512x10400_S512x32_0_6272 : ∀ a, (![0, 6272] : Fin 2 → Nat) a + S512x32.size a ≤ S512x10400.size a
  inb_S512x10400_S512x32_0_6304 : ∀ a, (![0, 6304] : Fin 2 → Nat) a + S512x32.size a ≤ S512x10400.size a
  inb_S512x10400_S512x32_0_6336 : ∀ a, (![0, 6336] : Fin 2 → Nat) a + S512x32.size a ≤ S512x10400.size a
  inb_S512x10400_S512x32_0_6368 : ∀ a, (![0, 6368] : Fin 2 → Nat) a + S512x32.size a ≤ S512x10400.size a
  inb_S512x10400_S512x32_0_6400 : ∀ a, (![0, 6400] : Fin 2 → Nat) a + S512x32.size a ≤ S512x10400.size a
  inb_S512x10400_S512x32_0_6432 : ∀ a, (![0, 6432] : Fin 2 → Nat) a + S512x32.size a ≤ S512x10400.size a
  inb_S512x10400_S512x32_0_6464 : ∀ a, (![0, 6464] : Fin 2 → Nat) a + S512x32.size a ≤ S512x10400.size a
  inb_S512x10400_S512x32_0_6496 : ∀ a, (![0, 6496] : Fin 2 → Nat) a + S512x32.size a ≤ S512x10400.size a
  inb_S512x10400_S512x32_0_6528 : ∀ a, (![0, 6528] : Fin 2 → Nat) a + S512x32.size a ≤ S512x10400.size a
  inb_S512x10400_S512x32_0_6560 : ∀ a, (![0, 6560] : Fin 2 → Nat) a + S512x32.size a ≤ S512x10400.size a
  inb_S512x10400_S512x32_0_6592 : ∀ a, (![0, 6592] : Fin 2 → Nat) a + S512x32.size a ≤ S512x10400.size a
  inb_S512x10400_S512x32_0_6624 : ∀ a, (![0, 6624] : Fin 2 → Nat) a + S512x32.size a ≤ S512x10400.size a
  inb_S512x10400_S512x32_0_6656 : ∀ a, (![0, 6656] : Fin 2 → Nat) a + S512x32.size a ≤ S512x10400.size a
  inb_S512x10400_S512x32_0_6688 : ∀ a, (![0, 6688] : Fin 2 → Nat) a + S512x32.size a ≤ S512x10400.size a
  inb_S512x10400_S512x32_0_6720 : ∀ a, (![0, 6720] : Fin 2 → Nat) a + S512x32.size a ≤ S512x10400.size a
  inb_S512x10400_S512x32_0_6752 : ∀ a, (![0, 6752] : Fin 2 → Nat) a + S512x32.size a ≤ S512x10400.size a
  inb_S512x10400_S512x32_0_6784 : ∀ a, (![0, 6784] : Fin 2 → Nat) a + S512x32.size a ≤ S512x10400.size a
  inb_S512x10400_S512x32_0_6816 : ∀ a, (![0, 6816] : Fin 2 → Nat) a + S512x32.size a ≤ S512x10400.size a
  inb_S512x10400_S512x32_0_6848 : ∀ a, (![0, 6848] : Fin 2 → Nat) a + S512x32.size a ≤ S512x10400.size a
  inb_S512x10400_S512x32_0_6880 : ∀ a, (![0, 6880] : Fin 2 → Nat) a + S512x32.size a ≤ S512x10400.size a
  inb_S512x10400_S512x32_0_6912 : ∀ a, (![0, 6912] : Fin 2 → Nat) a + S512x32.size a ≤ S512x10400.size a
  inb_S512x10400_S512x32_0_6944 : ∀ a, (![0, 6944] : Fin 2 → Nat) a + S512x32.size a ≤ S512x10400.size a
  inb_S512x10400_S512x32_0_6976 : ∀ a, (![0, 6976] : Fin 2 → Nat) a + S512x32.size a ≤ S512x10400.size a
  inb_S512x10400_S512x32_0_7008 : ∀ a, (![0, 7008] : Fin 2 → Nat) a + S512x32.size a ≤ S512x10400.size a
  inb_S512x10400_S512x32_0_7040 : ∀ a, (![0, 7040] : Fin 2 → Nat) a + S512x32.size a ≤ S512x10400.size a
  inb_S512x10400_S512x32_0_7072 : ∀ a, (![0, 7072] : Fin 2 → Nat) a + S512x32.size a ≤ S512x10400.size a
  inb_S512x10400_S512x32_0_7104 : ∀ a, (![0, 7104] : Fin 2 → Nat) a + S512x32.size a ≤ S512x10400.size a
  inb_S512x10400_S512x32_0_7136 : ∀ a, (![0, 7136] : Fin 2 → Nat) a + S512x32.size a ≤ S512x10400.size a
  inb_S512x10400_S512x32_0_7168 : ∀ a, (![0, 7168] : Fin 2 → Nat) a + S512x32.size a ≤ S512x10400.size a
  inb_S512x10400_S512x32_0_7200 : ∀ a, (![0, 7200] : Fin 2 → Nat) a + S512x32.size a ≤ S512x10400.size a
  inb_S512x10400_S512x32_0_7232 : ∀ a, (![0, 7232] : Fin 2 → Nat) a + S512x32.size a ≤ S512x10400.size a
  inb_S512x10400_S512x32_0_7264 : ∀ a, (![0, 7264] : Fin 2 → Nat) a + S512x32.size a ≤ S512x10400.size a
  inb_S512x10400_S512x32_0_7296 : ∀ a, (![0, 7296] : Fin 2 → Nat) a + S512x32.size a ≤ S512x10400.size a
  inb_S512x10400_S512x32_0_7328 : ∀ a, (![0, 7328] : Fin 2 → Nat) a + S512x32.size a ≤ S512x10400.size a
  inb_S512x10400_S512x32_0_7360 : ∀ a, (![0, 7360] : Fin 2 → Nat) a + S512x32.size a ≤ S512x10400.size a
  inb_S512x10400_S512x32_0_7392 : ∀ a, (![0, 7392] : Fin 2 → Nat) a + S512x32.size a ≤ S512x10400.size a
  inb_S512x10400_S512x32_0_7424 : ∀ a, (![0, 7424] : Fin 2 → Nat) a + S512x32.size a ≤ S512x10400.size a
  inb_S512x10400_S512x32_0_7456 : ∀ a, (![0, 7456] : Fin 2 → Nat) a + S512x32.size a ≤ S512x10400.size a
  inb_S512x10400_S512x32_0_7488 : ∀ a, (![0, 7488] : Fin 2 → Nat) a + S512x32.size a ≤ S512x10400.size a
  inb_S512x10400_S512x32_0_7520 : ∀ a, (![0, 7520] : Fin 2 → Nat) a + S512x32.size a ≤ S512x10400.size a
  inb_S512x10400_S512x32_0_7552 : ∀ a, (![0, 7552] : Fin 2 → Nat) a + S512x32.size a ≤ S512x10400.size a
  inb_S512x10400_S512x32_0_7584 : ∀ a, (![0, 7584] : Fin 2 → Nat) a + S512x32.size a ≤ S512x10400.size a
  inb_S512x10400_S512x32_0_7616 : ∀ a, (![0, 7616] : Fin 2 → Nat) a + S512x32.size a ≤ S512x10400.size a
  inb_S512x10400_S512x32_0_7648 : ∀ a, (![0, 7648] : Fin 2 → Nat) a + S512x32.size a ≤ S512x10400.size a
  inb_S512x10400_S512x32_0_7680 : ∀ a, (![0, 7680] : Fin 2 → Nat) a + S512x32.size a ≤ S512x10400.size a
  inb_S512x10400_S512x32_0_7712 : ∀ a, (![0, 7712] : Fin 2 → Nat) a + S512x32.size a ≤ S512x10400.size a
  inb_S512x10400_S512x32_0_7744 : ∀ a, (![0, 7744] : Fin 2 → Nat) a + S512x32.size a ≤ S512x10400.size a
  inb_S512x10400_S512x32_0_7776 : ∀ a, (![0, 7776] : Fin 2 → Nat) a + S512x32.size a ≤ S512x10400.size a
  inb_S512x10400_S512x32_0_7808 : ∀ a, (![0, 7808] : Fin 2 → Nat) a + S512x32.size a ≤ S512x10400.size a
  inb_S512x10400_S512x32_0_7840 : ∀ a, (![0, 7840] : Fin 2 → Nat) a + S512x32.size a ≤ S512x10400.size a
  inb_S512x10400_S512x32_0_7872 : ∀ a, (![0, 7872] : Fin 2 → Nat) a + S512x32.size a ≤ S512x10400.size a
  inb_S512x10400_S512x32_0_7904 : ∀ a, (![0, 7904] : Fin 2 → Nat) a + S512x32.size a ≤ S512x10400.size a
  inb_S512x10400_S512x32_0_7936 : ∀ a, (![0, 7936] : Fin 2 → Nat) a + S512x32.size a ≤ S512x10400.size a
  inb_S512x10400_S512x32_0_7968 : ∀ a, (![0, 7968] : Fin 2 → Nat) a + S512x32.size a ≤ S512x10400.size a
  inb_S512x10400_S512x32_0_8000 : ∀ a, (![0, 8000] : Fin 2 → Nat) a + S512x32.size a ≤ S512x10400.size a
  inb_S512x10400_S512x32_0_8032 : ∀ a, (![0, 8032] : Fin 2 → Nat) a + S512x32.size a ≤ S512x10400.size a
  inb_S512x10400_S512x32_0_8064 : ∀ a, (![0, 8064] : Fin 2 → Nat) a + S512x32.size a ≤ S512x10400.size a
  inb_S512x10400_S512x32_0_8096 : ∀ a, (![0, 8096] : Fin 2 → Nat) a + S512x32.size a ≤ S512x10400.size a
  inb_S512x10400_S512x32_0_8128 : ∀ a, (![0, 8128] : Fin 2 → Nat) a + S512x32.size a ≤ S512x10400.size a
  inb_S512x10400_S512x32_0_8160 : ∀ a, (![0, 8160] : Fin 2 → Nat) a + S512x32.size a ≤ S512x10400.size a
  inb_S512x10400_S512x32_0_8192 : ∀ a, (![0, 8192] : Fin 2 → Nat) a + S512x32.size a ≤ S512x10400.size a
  inb_S512x10400_S512x32_0_8224 : ∀ a, (![0, 8224] : Fin 2 → Nat) a + S512x32.size a ≤ S512x10400.size a
  inb_S512x10400_S512x32_0_8256 : ∀ a, (![0, 8256] : Fin 2 → Nat) a + S512x32.size a ≤ S512x10400.size a
  inb_S512x10400_S512x32_0_8288 : ∀ a, (![0, 8288] : Fin 2 → Nat) a + S512x32.size a ≤ S512x10400.size a
  inb_S512x10400_S512x32_0_8320 : ∀ a, (![0, 8320] : Fin 2 → Nat) a + S512x32.size a ≤ S512x10400.size a
  inb_S512x10400_S512x32_0_8352 : ∀ a, (![0, 8352] : Fin 2 → Nat) a + S512x32.size a ≤ S512x10400.size a
  inb_S512x10400_S512x32_0_8384 : ∀ a, (![0, 8384] : Fin 2 → Nat) a + S512x32.size a ≤ S512x10400.size a
  inb_S512x10400_S512x32_0_8416 : ∀ a, (![0, 8416] : Fin 2 → Nat) a + S512x32.size a ≤ S512x10400.size a
  inb_S512x10400_S512x32_0_8448 : ∀ a, (![0, 8448] : Fin 2 → Nat) a + S512x32.size a ≤ S512x10400.size a
  inb_S512x10400_S512x32_0_8480 : ∀ a, (![0, 8480] : Fin 2 → Nat) a + S512x32.size a ≤ S512x10400.size a
  inb_S512x10400_S512x32_0_8512 : ∀ a, (![0, 8512] : Fin 2 → Nat) a + S512x32.size a ≤ S512x10400.size a
  inb_S512x10400_S512x32_0_8544 : ∀ a, (![0, 8544] : Fin 2 → Nat) a + S512x32.size a ≤ S512x10400.size a
  inb_S512x10400_S512x32_0_8576 : ∀ a, (![0, 8576] : Fin 2 → Nat) a + S512x32.size a ≤ S512x10400.size a
  inb_S512x10400_S512x32_0_8608 : ∀ a, (![0, 8608] : Fin 2 → Nat) a + S512x32.size a ≤ S512x10400.size a
  inb_S512x10400_S512x32_0_8640 : ∀ a, (![0, 8640] : Fin 2 → Nat) a + S512x32.size a ≤ S512x10400.size a
  inb_S512x10400_S512x32_0_8672 : ∀ a, (![0, 8672] : Fin 2 → Nat) a + S512x32.size a ≤ S512x10400.size a
  inb_S512x10400_S512x32_0_8704 : ∀ a, (![0, 8704] : Fin 2 → Nat) a + S512x32.size a ≤ S512x10400.size a
  inb_S512x10400_S512x32_0_8736 : ∀ a, (![0, 8736] : Fin 2 → Nat) a + S512x32.size a ≤ S512x10400.size a
  inb_S512x10400_S512x32_0_8768 : ∀ a, (![0, 8768] : Fin 2 → Nat) a + S512x32.size a ≤ S512x10400.size a
  inb_S512x10400_S512x32_0_8800 : ∀ a, (![0, 8800] : Fin 2 → Nat) a + S512x32.size a ≤ S512x10400.size a
  inb_S512x10400_S512x32_0_8832 : ∀ a, (![0, 8832] : Fin 2 → Nat) a + S512x32.size a ≤ S512x10400.size a
  inb_S512x10400_S512x32_0_8864 : ∀ a, (![0, 8864] : Fin 2 → Nat) a + S512x32.size a ≤ S512x10400.size a
  inb_S512x10400_S512x32_0_8896 : ∀ a, (![0, 8896] : Fin 2 → Nat) a + S512x32.size a ≤ S512x10400.size a
  inb_S512x10400_S512x32_0_8928 : ∀ a, (![0, 8928] : Fin 2 → Nat) a + S512x32.size a ≤ S512x10400.size a
  inb_S512x10400_S512x32_0_8960 : ∀ a, (![0, 8960] : Fin 2 → Nat) a + S512x32.size a ≤ S512x10400.size a
  inb_S512x10400_S512x32_0_8992 : ∀ a, (![0, 8992] : Fin 2 → Nat) a + S512x32.size a ≤ S512x10400.size a
  inb_S512x10400_S512x32_0_9024 : ∀ a, (![0, 9024] : Fin 2 → Nat) a + S512x32.size a ≤ S512x10400.size a
  inb_S512x10400_S512x32_0_9056 : ∀ a, (![0, 9056] : Fin 2 → Nat) a + S512x32.size a ≤ S512x10400.size a
  inb_S512x10400_S512x32_0_9088 : ∀ a, (![0, 9088] : Fin 2 → Nat) a + S512x32.size a ≤ S512x10400.size a
  inb_S512x10400_S512x32_0_9120 : ∀ a, (![0, 9120] : Fin 2 → Nat) a + S512x32.size a ≤ S512x10400.size a
  inb_S512x10400_S512x32_0_9152 : ∀ a, (![0, 9152] : Fin 2 → Nat) a + S512x32.size a ≤ S512x10400.size a
  inb_S512x10400_S512x32_0_9184 : ∀ a, (![0, 9184] : Fin 2 → Nat) a + S512x32.size a ≤ S512x10400.size a
  inb_S512x10400_S512x32_0_9216 : ∀ a, (![0, 9216] : Fin 2 → Nat) a + S512x32.size a ≤ S512x10400.size a
  inb_S512x10400_S512x32_0_9248 : ∀ a, (![0, 9248] : Fin 2 → Nat) a + S512x32.size a ≤ S512x10400.size a
  inb_S512x10400_S512x32_0_9280 : ∀ a, (![0, 9280] : Fin 2 → Nat) a + S512x32.size a ≤ S512x10400.size a
  inb_S512x10400_S512x32_0_9312 : ∀ a, (![0, 9312] : Fin 2 → Nat) a + S512x32.size a ≤ S512x10400.size a
  inb_S512x10400_S512x32_0_9344 : ∀ a, (![0, 9344] : Fin 2 → Nat) a + S512x32.size a ≤ S512x10400.size a
  inb_S512x10400_S512x32_0_9376 : ∀ a, (![0, 9376] : Fin 2 → Nat) a + S512x32.size a ≤ S512x10400.size a
  inb_S512x10400_S512x32_0_9408 : ∀ a, (![0, 9408] : Fin 2 → Nat) a + S512x32.size a ≤ S512x10400.size a
  inb_S512x10400_S512x32_0_9440 : ∀ a, (![0, 9440] : Fin 2 → Nat) a + S512x32.size a ≤ S512x10400.size a
  inb_S512x10400_S512x32_0_9472 : ∀ a, (![0, 9472] : Fin 2 → Nat) a + S512x32.size a ≤ S512x10400.size a
  inb_S512x10400_S512x32_0_9504 : ∀ a, (![0, 9504] : Fin 2 → Nat) a + S512x32.size a ≤ S512x10400.size a
  inb_S512x10400_S512x32_0_9536 : ∀ a, (![0, 9536] : Fin 2 → Nat) a + S512x32.size a ≤ S512x10400.size a
  inb_S512x10400_S512x32_0_9568 : ∀ a, (![0, 9568] : Fin 2 → Nat) a + S512x32.size a ≤ S512x10400.size a
  inb_S512x10400_S512x32_0_9600 : ∀ a, (![0, 9600] : Fin 2 → Nat) a + S512x32.size a ≤ S512x10400.size a
  inb_S512x10400_S512x32_0_9632 : ∀ a, (![0, 9632] : Fin 2 → Nat) a + S512x32.size a ≤ S512x10400.size a
  inb_S512x10400_S512x32_0_9664 : ∀ a, (![0, 9664] : Fin 2 → Nat) a + S512x32.size a ≤ S512x10400.size a
  inb_S512x10400_S512x32_0_9696 : ∀ a, (![0, 9696] : Fin 2 → Nat) a + S512x32.size a ≤ S512x10400.size a
  inb_S512x10400_S512x32_0_9728 : ∀ a, (![0, 9728] : Fin 2 → Nat) a + S512x32.size a ≤ S512x10400.size a
  inb_S512x10400_S512x32_0_9760 : ∀ a, (![0, 9760] : Fin 2 → Nat) a + S512x32.size a ≤ S512x10400.size a
  inb_S512x10400_S512x32_0_9792 : ∀ a, (![0, 9792] : Fin 2 → Nat) a + S512x32.size a ≤ S512x10400.size a
  inb_S512x10400_S512x32_0_9824 : ∀ a, (![0, 9824] : Fin 2 → Nat) a + S512x32.size a ≤ S512x10400.size a
  inb_S512x10400_S512x32_0_9856 : ∀ a, (![0, 9856] : Fin 2 → Nat) a + S512x32.size a ≤ S512x10400.size a
  inb_S512x10400_S512x32_0_9888 : ∀ a, (![0, 9888] : Fin 2 → Nat) a + S512x32.size a ≤ S512x10400.size a
  inb_S512x10400_S512x32_0_9920 : ∀ a, (![0, 9920] : Fin 2 → Nat) a + S512x32.size a ≤ S512x10400.size a
  inb_S512x10400_S512x32_0_9952 : ∀ a, (![0, 9952] : Fin 2 → Nat) a + S512x32.size a ≤ S512x10400.size a
  inb_S512x10400_S512x32_0_9984 : ∀ a, (![0, 9984] : Fin 2 → Nat) a + S512x32.size a ≤ S512x10400.size a
  inb_S512x10400_S512x32_0_10016 : ∀ a, (![0, 10016] : Fin 2 → Nat) a + S512x32.size a ≤ S512x10400.size a
  inb_S512x10400_S512x32_0_10048 : ∀ a, (![0, 10048] : Fin 2 → Nat) a + S512x32.size a ≤ S512x10400.size a
  inb_S512x10400_S512x32_0_10080 : ∀ a, (![0, 10080] : Fin 2 → Nat) a + S512x32.size a ≤ S512x10400.size a
  inb_S512x10400_S512x32_0_10112 : ∀ a, (![0, 10112] : Fin 2 → Nat) a + S512x32.size a ≤ S512x10400.size a
  inb_S512x10400_S512x32_0_10144 : ∀ a, (![0, 10144] : Fin 2 → Nat) a + S512x32.size a ≤ S512x10400.size a
  inb_S512x10400_S512x32_0_10176 : ∀ a, (![0, 10176] : Fin 2 → Nat) a + S512x32.size a ≤ S512x10400.size a
  inb_S512x10400_S512x32_0_10208 : ∀ a, (![0, 10208] : Fin 2 → Nat) a + S512x32.size a ≤ S512x10400.size a
  inb_S512x10400_S512x32_0_10240 : ∀ a, (![0, 10240] : Fin 2 → Nat) a + S512x32.size a ≤ S512x10400.size a
  inb_S512x10400_S512x32_0_10272 : ∀ a, (![0, 10272] : Fin 2 → Nat) a + S512x32.size a ≤ S512x10400.size a
  inb_S512x10400_S512x32_0_10304 : ∀ a, (![0, 10304] : Fin 2 → Nat) a + S512x32.size a ≤ S512x10400.size a
  inb_S512x10400_S512x32_0_10336 : ∀ a, (![0, 10336] : Fin 2 → Nat) a + S512x32.size a ≤ S512x10400.size a
  inb_S512x10400_S512x32_0_10368 : ∀ a, (![0, 10368] : Fin 2 → Nat) a + S512x32.size a ≤ S512x10400.size a
  shapeCasts_S16384x10400_S16384x325x32 : S16384x10400.ShapeCasts S16384x325x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x832.size a ≤ S16384x832.size a
  hwx0_0 : ∀ i : grid0.Coords, EltTy.bits .f32 = 32 ∨ (Rect.block (s := S16384x832) S512x832.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x10400.size a ≤ S16384x10400.size a
  hwx0_1 : ∀ i : grid0.Coords, EltTy.bits .f32 = 32 ∨ (Rect.block (s := S16384x10400) S512x10400.size (cc0_transform_1 i) (hinb0_1 i)).WholeWords (EltTy.packing .f32)

variable [Facts₀]

abbrev win0_0 : Pipeline.Window sig grid0 :=
  Pipeline.Window.ofSpec (Memref.whole main_v0) S512x832.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x10400.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x26x32 : Shape := ⟨3, ![16384, 26, 32]⟩
abbrev S325 : Shape := ⟨1, ![325]⟩
abbrev S_ : Shape := ⟨0, ![]⟩
abbrev S325x1 : Shape := ⟨2, ![325, 1]⟩
abbrev S16384x325x32 : Shape := ⟨3, ![16384, 325, 32]⟩

abbrev nBuf : Space → Nat
  | .hbm => 18
  | .vmem => 0
  | .smem => 0
  | _ => 0

abbrev bufTy : (tb : Table) → Fin (tcTables nBuf tb) → BufTy
  | .hbm, ⟨0, _⟩ => ⟨S16384x26x32, .f32⟩
  | .hbm, ⟨1, _⟩ => ⟨S325, .i32⟩
  | .hbm, ⟨2, _⟩ => ⟨S325, .i1⟩
  | .hbm, ⟨3, _⟩ => ⟨S325, .i32⟩
  | .hbm, ⟨4, _⟩ => ⟨S325, .i1⟩
  | .hbm, ⟨5, _⟩ => ⟨S_, .i32⟩
  | .hbm, ⟨6, _⟩ => ⟨S325, .i32⟩
  | .hbm, ⟨7, _⟩ => ⟨S325, .i32⟩
  | .hbm, ⟨8, _⟩ => ⟨S325, .i32⟩
  | .hbm, ⟨9, _⟩ => ⟨S325x1, .i32⟩
  | .hbm, ⟨10, _⟩ => ⟨S16384x325x32, .f32⟩
  | .hbm, ⟨11, _⟩ => ⟨S_, .i32⟩
  | .hbm, ⟨12, _⟩ => ⟨S325, .i32⟩
  | .hbm, ⟨13, _⟩ => ⟨S325, .i32⟩
  | .hbm, ⟨14, _⟩ => ⟨S325, .i32⟩
  | .hbm, ⟨15, _⟩ => ⟨S325x1, .i32⟩
  | .hbm, ⟨16, _⟩ => ⟨S16384x325x32, .f32⟩
  | .hbm, ⟨17, _⟩ => ⟨S16384x325x32, .f32⟩
  | _, _ => ⟨S16384x26x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S325 : S_.BroadcastsInDim S325 (![] : Fin 0 → Fin S325.rank)
  bcast_S325_S325x1_0 : S325.BroadcastsInDim S325x1 (![0] : Fin 1 → Fin S325x1.rank)
  gather_S16384x26x32_S325x1_S16384x325x32_02_1_n_n_1_1_16384132_wf : GatherDims.WF S16384x26x32 S325x1 S16384x325x32 [0, 2] [1] [] [1] [] 1 ![16384, 1, 32]

variable [Facts₀]

def gather_S16384x26x32_S325x1_S16384x325x32_02_1_n_n_1_1_16384132 : GatherDims S16384x26x32 S325x1 S16384x325x32 where
  offsetDims := [0, 2]
  collapsedSliceDims := [1]
  operandBatchingDims := []
  startIndicesBatchingDims := []
  startIndexMap := [1]
  indexVectorDim := 1
  sliceSizes := ![16384, 1, 32]
  wf := gather_S16384x26x32_S325x1_S16384x325x32_02_1_n_n_1_1_16384132_wf

class Facts : Prop extends Facts₀ where

variable [Facts]
-- ==== Proof.PairSpec.lean ====
/-
  The pairwise field products, as functions of whole arrays.

  A row holds 26 fields of 32 numbers. The layer multiplies the fields pairwise, elementwise along the 32 numbers, one
  product per unordered pair {i, j} with i < j, the pairs taken in the row-major order of the strict upper triangle:
  (0,1), (0,2), …, (0,25), (1,2), …, (24,25) — 26·25/2 = 325 pairs. Pair number p has the first field `pairFst p` and
  the second field `pairSnd p`.

  Two spellings of the same result are stated here, over any number n of rows:
  * `pairProd`, over the arrays as [n, 26, 32] and [n, 325, 32]: entry (r, p, d) is x(r, pairFst p, d) · x(r, pairSnd p, d);
  * `flatProd`, over the rows flattened to [n, 832] and [n, 10400]: column c = 32·p + d of the result is the product of
    the columns 32·pairFst p + d and 32·pairSnd p + d.
  Flattening a row is the row-major re-reading of its (field, number) pairs, so the second is the first read through the
  two reshapes (proved where the reshapes are read at an index). No law of arithmetic is used: both sides are the same
  product of the same two entries.
-/
import Idealize.ShloMosaic.Lib.ValueIdx

noncomputable section

namespace Cert.PairProducts

open Idealize.ShloMosaic Idealize.ShloMosaic.ValueIdx

/-- The pairs (i, j), i < j < 26, row by row of the strict upper triangle. -/
def pairList : List (ℕ × ℕ) :=
  (List.range 26).flatMap fun i => (List.range' (i + 1) (25 - i)).map fun j => (i, j)

/-- The smaller field of pair number `p`. -/
def pairFst (p : ℕ) : ℕ := (pairList.getD p (0, 0)).1
/-- The larger field of pair number `p`. -/
def pairSnd (p : ℕ) : ℕ := (pairList.getD p (0, 0)).2

theorem pairFst_lt {p : ℕ} (h : p < 325) : pairFst p < 26 :=
  (by decide +kernel : ∀ q : Fin 325, pairFst q.val < 26) ⟨p, h⟩
theorem pairSnd_lt {p : ℕ} (h : p < 325) : pairSnd p < 26 :=
  (by decide +kernel : ∀ q : Fin 325, pairSnd q.val < 26) ⟨p, h⟩

/-- The field of pair `p` as a coordinate of the 26-field axis. -/
def fstField (p : Fin 325) : Fin 26 := ⟨pairFst p.val, pairFst_lt p.isLt⟩
def sndField (p : Fin 325) : Fin 26 := ⟨pairSnd p.val, pairSnd_lt p.isLt⟩

/-- Column `32·f + d` of a flattened row, for the field `f` of the pair that column `c` of the result belongs to
    (`c / 32`) and the position `d = c % 32` inside the field. -/
def fstCol (c : Fin 10400) : Fin 832 :=
  ⟨32 * pairFst (c.val / 32) + c.val % 32, by
    have := pairFst_lt (show c.val / 32 < 325 by have := c.isLt; omega); omega⟩
def sndCol (c : Fin 10400) : Fin 832 :=
  ⟨32 * pairSnd (c.val / 32) + c.val % 32, by
    have := pairSnd_lt (show c.val / 32 < 325 by have := c.isLt; omega); omega⟩

/-- Entry (r, p, d) of the result: the product of the entries (r, pairFst p, d) and (r, pairSnd p, d). -/
def pairProd {n : ℕ} (x : FVec Ideal ⟨3, ![n, 26, 32]⟩ .f32) : FVec Ideal ⟨3, ![n, 325, 32]⟩ .f32 :=
  fun j => x (ix3 (j 0) (fstField (j 1)) (j 2)) * x (ix3 (j 0) (sndField (j 1)) (j 2))

/-- The same over flattened rows: column c of the result is the product of the columns `fstCol c` and `sndCol c`. -/
def flatProd {n : ℕ} (X : FVec Ideal ⟨2, ![n, 832]⟩ .f32) : FVec Ideal ⟨2, ![n, 10400]⟩ .f32 :=
  fun y => X (ix2 (y 0) (fstCol (y 1))) * X (ix2 (y 0) (sndCol (y 1)))

theorem pairProd_apply {n : ℕ} (x : FVec Ideal ⟨3, ![n, 26, 32]⟩ .f32) (r : Fin n) (p : Fin 325) (d : Fin 32) :
    pairProd x (ix3 r p d) = x (ix3 r (fstField p) d) * x (ix3 r (sndField p) d) := rfl

theorem flatProd_apply {n : ℕ} (X : FVec Ideal ⟨2, ![n, 832]⟩ .f32) (r : Fin n) (c : Fin 10400) :
    flatProd X (ix2 r c) = X (ix2 r (fstCol c)) * X (ix2 r (sndCol c)) := rfl

/-- Column 32·p + d of the result belongs to pair p, at position d. -/
theorem fstCol_pair (p : Fin 325) (d : Fin 32) (h : 32 * p.val + d.val < 10400) :
    (fstCol ⟨32 * p.val + d.val, h⟩).val = 32 * (fstField p).val + d.val := by
  have hq : (32 * p.val + d.val) / 32 = p.val := by have := d.isLt; omega
  have hr : (32 * p.val + d.val) % 32 = d.val := by have := d.isLt; omega
  show 32 * pairFst ((32 * p.val + d.val) / 32) + (32 * p.val + d.val) % 32 = 32 * pairFst p.val + d.val
  rw [hq, hr]
theorem sndCol_pair (p : Fin 325) (d : Fin 32) (h : 32 * p.val + d.val < 10400) :
    (sndCol ⟨32 * p.val + d.val, h⟩).val = 32 * (sndField p).val + d.val := by
  have hq : (32 * p.val + d.val) / 32 = p.val := by have := d.isLt; omega
  have hr : (32 * p.val + d.val) % 32 = d.val := by have := d.isLt; omega
  show 32 * pairSnd ((32 * p.val + d.val) / 32) + (32 * p.val + d.val) % 32 = 32 * pairSnd p.val + d.val
  rw [hq, hr]

end Cert.PairProducts

end
-- ==== Proof.KernelTile.lean ====
/-
  One stored tile of a grid point's output block.

  The input block v : [512, 832] holds 512 rows of 26 fields of 32 numbers. The product of its two 32-column slices at
  columns a and b, stored at columns [col, col + 32) of the [512, 10400] output block, is — when col = 32·p starts pair
  p's tile and a, b start that pair's two fields — the restriction to those columns of `flatProd v`, whose column c is
  the product of the columns `fstCol c` and `sndCol c` of v: inside the tile c / 32 = p and c % 32 is the position
  inside the field.
-/
import proofs.«128253_j6700148981881_1_alg».proof.KernelIdeal
import proofs.«128253_j6700148981881_1_alg».proof.Proof.PairSpec

noncomputable section

namespace Cert.KernelIdeal.BlockValue

open Idealize.ShloMosaic Idealize.ShloMosaic.ValueIdx Cert.KernelIdeal Cert.PairProducts

/-- One tile: the product of the slices of `v` at columns `a` and `b`, stored at columns [col, col + 32), is the
    restriction of `flatProd v` when `col` is the start of a pair's tile and `a`, `b` the starts of that pair's fields. -/
theorem tile_eq (v : FVec Ideal S512x832 .f32) (a b col : Nat)
    (hs1 : S512x832.Slices ![0, a] S512x32) (hs2 : S512x832.Slices ![0, b] S512x32)
    (inb : ∀ ax, (![0, col] : Fin 2 → Nat) ax + S512x32.size ax ≤ S512x10400.size ax)
    (hcol : col % 32 = 0) (ha : a = 32 * pairFst (col / 32)) (hb : b = 32 * pairSnd (col / 32)) :
    ∀ x : (Rect.unit (s := S512x10400) ![0, col] S512x32.size inb).shape.Idx,
      mulf (extractStridedSlice S512x32 ![0, a] v hs1) (extractStridedSlice S512x32 ![0, b] v hs2) x
        = flatProd v ((Rect.unit (s := S512x10400) ![0, col] S512x32.size inb).emb x) := by
  intro x
  have hx1 : (x 1).val < 32 := (x 1).isLt
  have hq : (col + 1 * (x 1).val) / 32 = col / 32 := by omega
  have hr : (col + 1 * (x 1).val) % 32 = (x 1).val := by omega
  show v _ * v _ = v _ * v _
  congr 2
  · funext ax; apply Fin.ext
    match ax with
    | ⟨0, _⟩ => show 0 + (x 0).val = 0 + 1 * (x 0).val; omega
    | ⟨1, _⟩ =>
      show a + (x 1).val = 32 * pairFst ((col + 1 * (x 1).val) / 32) + (col + 1 * (x 1).val) % 32
      rw [hq, hr, ha]
  · funext ax; apply Fin.ext
    match ax with
    | ⟨0, _⟩ => show 0 + (x 0).val = 0 + 1 * (x 0).val; omega
    | ⟨1, _⟩ =>
      show b + (x 1).val = 32 * pairSnd ((col + 1 * (x 1).val) / 32) + (col + 1 * (x 1).val) % 32
      rw [hq, hr, hb]

end Cert.KernelIdeal.BlockValue

end
-- ==== Proof.KernelBlock.lean ====
/-
  What one grid point's body leaves in its output block.

  The body loads its whole input block v : [512, 832] (512 rows, each 26 fields of 32 numbers side by side) and stores
  325 tiles of 32 columns into its output block [512, 10400]: the tile at columns [32·p, 32·p + 32) is the elementwise
  product of the two 32-column slices of v at columns 32·i and 32·j, (i, j) the p-th pair of fields. Every tile is
  therefore the restriction of ONE function of the block index — `flatProd v`: column c is the product of the columns
  `fstCol c` and `sndCol c` of v — and the tiles cover the block, so the block IS `flatProd v`.
-/
import proofs.«128253_j6700148981881_1_alg».proof.Proof.KernelIdealFrame
import proofs.«128253_j6700148981881_1_alg».proof.Proof.KernelTile
import Idealize.ShloMosaic.Lib.Pipeline.Value

set_option maxRecDepth 16384

noncomputable section

namespace Cert.KernelIdeal.BlockValue

open Idealize.ShloMosaic Idealize.ShloMosaic.ValueIdx Cert.KernelIdeal Cert.KernelIdeal.Gen Cert.KernelIdeal.GenP
open Cert.PairProducts

/-- The body's 325 stores leave `flatProd` of the block it loaded (read through the body's own load and identity cast). -/
theorem out_eq_flat (x0 : Vec Ideal S512x832 .f32) (y : S512x10400.Idx) :
    out0_1 (F := Ideal) x0 y = flatProd (k0_pay1 (View.ld x0 r0_0)) y := by
  unfold out0_1
  refine View.canon_apply_of_pieces (Val := Elt Ideal) (flatProd (k0_pay1 (View.ld x0 r0_0))) _ ?_ y (cover0_1 ..)
  repeat' (refine List.forall_mem_cons.2 ⟨?_, ?_⟩)
  all_goals first
    | (dsimp only
       exact tile_eq (k0_pay1 (View.ld x0 r0_0)) _ _ _ (by decide) (by decide) (by decide)
         (by decide +kernel) (by decide +kernel) (by decide +kernel))
    | exact fun _ h => absurd h List.not_mem_nil

/-- The body's load of the whole block followed by its identity cast reads the block. -/
theorem loaded_eq (x0 : Vec Ideal S512x832 .f32) : k0_pay1 (View.ld x0 r0_0) = x0 := by
  unfold k0_pay1
  rw [shapeCast_self, View.ld_unit_zero (S := S512x832) (funext fun a => by fin_cases a <;> rfl)]

/-- The output block after the body, as one function of the input block. -/
theorem out_eq (x0 : Vec Ideal S512x832 .f32) : out0_1 (F := Ideal) x0 = flatProd x0 := by
  funext y
  rw [out_eq_flat, loaded_eq]

end Cert.KernelIdeal.BlockValue

end
-- ==== Proof.PairLayout.lean ====
/-
  The flattened spelling is the structured one read through the two reshapes; and a block of rows of `flatProd`.

  Flattening [n, 26, 32] to [n, 832] re-reads a row's (field f, position d) as column 32·f + d, and unflattening
  [n, 10400] to [n, 325, 32] re-reads column 32·p + d as (pair p, position d): both keep the row-major order. Column
  32·p + d of `flatProd` is the product of the columns 32·fstField p + d and 32·sndField p + d, so read through the two
  reshapes `flatProd` is `pairProd` (`unflatten_flatProd_flatten`).
  `flatProd` works row by row: rows [512·t, 512·t + 512) of `flatProd X` are `flatProd` of the same rows of X
  (`flatProd_rows`).
-/
import proofs.«128253_j6700148981881_1_alg».proof.Proof.PairSpec
import Idealize.ShloMosaic.Lib.Pipeline.Value

noncomputable section

namespace Cert.PairProducts

open Idealize.ShloMosaic Idealize.ShloMosaic.ValueIdx

variable {n : Nat}

/-- The flattened array at (r, 32·f + d) is the array at (r, f, d). -/
theorem flatten_apply (x : FVec Ideal ⟨3, ![n, 26, 32]⟩ .f32)
    (h : (⟨3, ![n, 26, 32]⟩ : Shape).ShapeCasts ⟨2, ![n, 832]⟩) (r : Fin n) (f : Fin 26) (d : Fin 32) (k : Fin 832)
    (hk : k.val = 32 * f.val + d.val) :
    shapeCast ⟨2, ![n, 832]⟩ x h (ix2 r k) = x (ix3 r f d) := by
  refine shapeCast_apply x h (ix2 r k) (ix3 r f d) ?_
  rw [Shape.rowMajor_val_three, Shape.rowMajor_val_two]
  show (r.val * 26 + f.val) * 32 + d.val = r.val * 832 + k.val
  omega

/-- The unflattened array at (r, p, d) is the flat array at (r, 32·p + d). -/
theorem unflatten_apply (Y : FVec Ideal ⟨2, ![n, 10400]⟩ .f32)
    (h : (⟨2, ![n, 10400]⟩ : Shape).ShapeCasts ⟨3, ![n, 325, 32]⟩) (r : Fin n) (p : Fin 325) (d : Fin 32)
    (hc : 32 * p.val + d.val < 10400) :
    shapeCast ⟨3, ![n, 325, 32]⟩ Y h (ix3 r p d) = Y (ix2 r ⟨32 * p.val + d.val, hc⟩) := by
  refine shapeCast_apply Y h (ix3 r p d) (ix2 r ⟨32 * p.val + d.val, hc⟩) ?_
  rw [Shape.rowMajor_val_three, Shape.rowMajor_val_two]
  show r.val * 10400 + (32 * p.val + d.val) = (r.val * 325 + p.val) * 32 + d.val
  omega

/-- Flatten, multiply the pairs' columns, unflatten: the pairwise field products. -/
theorem unflatten_flatProd_flatten (x : FVec Ideal ⟨3, ![n, 26, 32]⟩ .f32)
    (h₁ : (⟨3, ![n, 26, 32]⟩ : Shape).ShapeCasts ⟨2, ![n, 832]⟩)
    (h₂ : (⟨2, ![n, 10400]⟩ : Shape).ShapeCasts ⟨3, ![n, 325, 32]⟩) :
    shapeCast ⟨3, ![n, 325, 32]⟩ (flatProd (shapeCast ⟨2, ![n, 832]⟩ x h₁)) h₂ = pairProd x := by
  funext j
  obtain ⟨r, p, d, rfl⟩ : ∃ (r : Fin n) (p : Fin 325) (d : Fin 32), j = ix3 r p d := ⟨j 0, j 1, j 2, eq_ix3 j⟩
  have hc : 32 * p.val + d.val < 10400 := by have := p.isLt; have := d.isLt; omega
  rw [unflatten_apply _ h₂ r p d hc, flatProd_apply,
    flatten_apply x h₁ r (fstField p) d _ (fstCol_pair p d hc),
    flatten_apply x h₁ r (sndField p) d _ (sndCol_pair p d hc)]
  rfl

/-- Rows [512·t, 512·t + 512) of `flatProd X` are `flatProd` of those rows of X: if B is that block of rows of X
    (`hB`), then at an index y of the block and the index Y of the array it sits at, the two agree. -/
theorem flatProd_rows (X : FVec Ideal ⟨2, ![16384, 832]⟩ .f32) (B : FVec Ideal ⟨2, ![512, 832]⟩ .f32) (t : Nat)
    (ht : t < 32)
    (hB : ∀ z : (⟨2, ![512, 832]⟩ : Shape).Idx,
      B z = X (ix2 ⟨512 * t + (z 0).val, by have := idx2_lt0 z; omega⟩ (z 1)))
    (y : (⟨2, ![512, 10400]⟩ : Shape).Idx) (Y : (⟨2, ![16384, 10400]⟩ : Shape).Idx)
    (h0 : (Y 0).val = 512 * t + (y 0).val) (h1 : (Y 1).val = (y 1).val) :
    flatProd B y = flatProd X Y := by
  have e1 : Y 1 = y 1 := Fin.ext h1
  show B (ix2 (y 0) (fstCol (y 1))) * B (ix2 (y 0) (sndCol (y 1)))
    = X (ix2 (Y 0) (fstCol (Y 1))) * X (ix2 (Y 0) (sndCol (Y 1)))
  rw [hB, hB, e1]
  congr 2 <;>
    (funext a; apply Fin.ext
     match a with
     | ⟨0, _⟩ => exact h0.symm
     | ⟨1, _⟩ => rfl)

end Cert.PairProducts

end
-- ==== Proof.KernelValue.lean ====
/-
  The kernel program's result, as a function of its input.

  @main flattens the input [16384, 26, 32] to [16384, 832], runs the region over 32 grid points, and unflattens the
  region's output [16384, 10400] to [16384, 325, 32]. Point t loads rows [512·t, 512·t + 512) of the flattened input and
  writes back the same rows of the output; what it writes is `flatProd` of its block (the body's 325 tiles), and
  `flatProd` works row by row, so it is that block of rows of `flatProd` of the whole flattened input. The 32 blocks
  tile the output array, so the array ends at `flatProd` of the flattened input, and the result buffer at that read
  through the unflattening: the pairwise field products of the input.
-/
import proofs.«128253_j6700148981881_1_alg».proof.Proof.KernelBlock
import proofs.«128253_j6700148981881_1_alg».proof.Proof.PairLayout
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Idealize.ShloMosaic.StableHlo
open Cert.KernelIdeal Cert.KernelIdeal.Gen Cert.KernelIdeal.GenP Cert.KernelIdeal.BlockValue Cert.PairProducts

variable (m : (ℓ : Loc nD τ sig) → Buf (Elt Ideal) ℓ) (ρ : Dev nD → PrngReg)

/-- The flattened input as the region finds it, and `flatProd` of it. -/
abbrev flatIn (c : Dev nD) : FVec Ideal S16384x832 .f32 := V m c main_v0
abbrev flatOut (c : Dev nD) : FVec Ideal S16384x10400 .f32 := flatProd (flatIn m c)

/-- The one host operation before the region: the region finds the input flattened. -/
theorem flatIn_eq (c : Dev nD) :
    flatIn m c = shapeCast S16384x832 (m ((c : Thread nD τ).loc main_arg0)) shapeCasts_S16384x26x32_S16384x832 := by
  show StableHlo.after hostOps0 (fun b => m (c, b)) (Proc.devRef .tc main_v0) = _
  after_results
  rfl

/-- The printed index maps over the grid: point t's blocks are row block t, column block 0, of both windows. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input window's block at point t is rows [512·t, 512·t + 512) of the flattened input. -/
theorem iblk_apply (c : Dev nD) (t : Fin cfg0.N) (z : S512x832.Idx) :
    (iblk m c 0 t : Vec Ideal S512x832 .f32) z
      = flatIn m c (ix2 ⟨512 * t.val + (z 0).val, by
          have := t.isLt; have h32 : cfg0.N = 32 := N_0; have := idx2_lt0 z; omega⟩ (z 1)) := by
  obtain ⟨e0, e1, -, -⟩ := idx_facts t
  unfold iblk
  rw [View.read_apply]
  show V m c main_v0 _ = V m c main_v0 _
  congr 1
  funext a
  apply Fin.ext
  match a with
  | ⟨0, _⟩ => show win0_0.index t (0 : Fin 2) * 512 + 1 * (z 0).val = 512 * t.val + (z 0).val; omega
  | ⟨1, _⟩ => show win0_0.index t (1 : Fin 2) * 832 + 1 * (z 1).val = (z 1).val; omega

/-- What point t writes back is block t of `flatOut`. -/
theorem flushed_eq (c : Dev nD) (t : Fin cfg0.N) (_hf : (cfg0.win 1).flush t = true) :
    (dats m 0 c).flushed 1 t = ((cfg0.win 1).blk t).view.read (Elt Ideal) (flatOut m c) := by
  obtain ⟨-, -, e2, e3⟩ := idx_facts t
  have h32 : cfg0.N = 32 := N_0
  have ht : t.val < 32 := by have := t.isLt; omega
  show (cfg0.win 1).cut (grid0.coords t) ((dats m 0 c).after 1 t) = _
  rw [after0_1, out_eq]
  funext j
  show flatProd (iblk m c 0 t : Vec Ideal S512x832 .f32) j = flatProd (flatIn m c) (((cfg0.win 1).blk t).view.emb j)
  refine flatProd_rows (flatIn m c) (iblk m c 0 t) t.val ht (fun z => iblk_apply m c t z) j _ ?_ ?_
  · show win0_1.index t (0 : Fin 2) * 512 + 1 * (j 0).val = 512 * t.val + (j 0).val; omega
  · show win0_1.index t (1 : Fin 2) * 10400 + 1 * (j 1).val = (j 1).val; omega

/-- The 32 row blocks tile the output array: it ends at `flatOut`. -/
theorem final (c : Dev nD) : (dats m 0 c).arrAt 1 cfg0.N = flatOut m c :=
  (dats m 0 c).arrAt_eq_of_cover 1 (flatOut m c) (flushed_eq m c) fun i => by
    have h32 : cfg0.N = 32 := N_0
    have hi0 : (i 0 : Nat) < 16384 := (i 0).isLt
    have hi1 : (i 1 : Nat) < 10400 := (i 1).isLt
    let t : Fin cfg0.N := ⟨(i 0 : Nat) / 512, by omega⟩
    obtain ⟨-, -, e2, e3⟩ := idx_facts t
    have et : t.val = (i 0 : Nat) / 512 := rfl
    refine ⟨t, flush0_1 t, ?_⟩
    show i ∈ ((View.whole main_v1).slice (win0_1.rect t)).set
    rw [View.set_slice_whole, Rect.mem_set_unit]
    intro a
    match a with
    | ⟨0, _⟩ =>
      show win0_1.index t (0 : Fin 2) * 512 ≤ (i 0 : Nat) ∧ (i 0 : Nat) < win0_1.index t (0 : Fin 2) * 512 + 512
      omega
    | ⟨1, _⟩ =>
      show win0_1.index t (1 : Fin 2) * 10400 ≤ (i 1 : Nat) ∧ (i 1 : Nat) < win0_1.index t (1 : Fin 2) * 10400 + 10400
      omega

/-- The one host operation after the region unflattens the region's output: the result buffer, read off the
    frame run's tail. -/
theorem tail_eq (c : Dev nD) :
    Pipeline.afterTail₀ cfgs (dats m) 0 (V0 m) [hostOps1] c main_v2
      = shapeCast S16384x325x32 (flatOut m c) shapeCasts_S16384x10400_S16384x325x32 := by
  unfold Pipeline.afterTail₀
  show StableHlo.after hostOps1 _ (Proc.devRef .tc main_v2) = _
  after_results
  have e : Pipeline.withArrays spec0 c (V0 m c) (fun w => (dats m 0 c).arrAt w cfg0.N) (Proc.devRef .tc main_v1)
      = flatOut m c :=
    (Pipeline.withArrays_arr spec0 launch0.win.arr_inj c _ _ 1).trans (final m c)
  rw [e]
  rfl

/-- The result buffer as a function of the input: the pairwise field products. -/
theorem result_eq (c : Dev nD) :
    Pipeline.afterTail₀ cfgs (dats m) 0 (V0 m) [hostOps1] c main_v2
      = pairProd (m ((c : Thread nD τ).loc main_arg0)) := by
  rw [tail_eq]
  show shapeCast S16384x325x32 (flatProd (flatIn m c)) _ = _
  rw [flatIn_eq]
  exact unflatten_flatProd_flatten _ _ _

/-- The frame run re-posted: the result buffer at the pairwise field products of the input, the input unchanged. -/
theorem run : θ_run defs (onTc (τ := τ) (main (F := Ideal))) ⟨m, fun _ => 0, ρ⟩ fun r => ∀ c : Dev nD,
      r.2.mem ((c.tc : Thread nD τ).loc main_v2) = pairProd (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.ArrayValue

end
-- ==== Proof.RefRun.lean ====
/-
  The reference's run, read back.

  The reference is a straight line of 17 host operations: two tables of 325 words (the first and the second field of
  every pair), each passed through jnp's negative-index wrap (add 26 where a mask says the entry is negative; the mask
  is the constant "false") and laid as a [325, 1] column of start indices; two gathers of the input along its field
  axis at those columns; and the elementwise product of the two gathered arrays. Every weakly fair execution ends with
  the result buffer at exactly that composed term of the input, and the input as launched.
-/
import proofs.«128253_j6700148981881_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The gather's dimension numbers: offsets on axes 0 and 2, the field axis collapsed and looked up. -/
abbrev fieldGather : GatherDims S16384x26x32 S325x1 S16384x325x32 := gather_S16384x26x32_S325x1_S16384x325x32_02_1_n_n_1_1_16384132

/-- @main's 17 operations, in order. -/
abbrev ops : List (HloOp τ sig (Elt F)) :=
  [ nullary main_c (fun i => lit0 (S325.rowMajor i)),
    nullary main_c_0 (constantI S325 1 0#1),
    nullary main_c_1 (fun i => lit1 (S325.rowMajor i)),
    nullary main_c_2 (constantI S325 1 0#1),
    nullary main_c_3 (constantI S_ 32 26#32),
    unary main_c_3 main_v0 (broadcastInDim S325 ![] bcast_S_S325 : (⟨S_, .i32⟩ : BufTy).Contents (Elt F) → (⟨S325, .i32⟩ : BufTy).Contents (Elt F)),
    binary main_c main_v0 main_v1 (addi : (⟨S325, .i32⟩ : BufTy).Contents (Elt F) → (⟨S325, .i32⟩ : BufTy).Contents (Elt F) → (⟨S325, .i32⟩ : BufTy).Contents (Elt F)),
    ternary main_c_0 main_v1 main_c main_v2 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
    unary main_v2 main_v3 (broadcastInDim S325x1 ![0] bcast_S325_S325x1_0 : (⟨S325, .i32⟩ : BufTy).Contents (Elt F) → (⟨S325x1, .i32⟩ : BufTy).Contents (Elt F)),
    binary main_arg0 main_v3 main_v4 ((fun x i => Host.gather gather_S16384x26x32_S325x1_S16384x325x32_02_1_n_n_1_1_16384132 x i) : (⟨S16384x26x32, .f32⟩ : BufTy).Contents (Elt F) → (⟨S325x1, .i32⟩ : BufTy).Contents (Elt F) → (⟨S16384x325x32, .f32⟩ : BufTy).Contents (Elt F)),
    nullary main_c_4 (constantI S_ 32 26#32),
    unary main_c_4 main_v5 (broadcastInDim S325 ![] bcast_S_S325 : (⟨S_, .i32⟩ : BufTy).Contents (Elt F) → (⟨S325, .i32⟩ : BufTy).Contents (Elt F)),
    binary main_c_1 main_v5 main_v6 (addi : (⟨S325, .i32⟩ : BufTy).Contents (Elt F) → (⟨S325, .i32⟩ : BufTy).Contents (Elt F) → (⟨S325, .i32⟩ : BufTy).Contents (Elt F)),
    ternary main_c_2 main_v6 main_c_1 main_v7 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
    unary main_v7 main_v8 (broadcastInDim S325x1 ![0] bcast_S325_S325x1_0 : (⟨S325, .i32⟩ : BufTy).Contents (Elt F) → (⟨S325x1, .i32⟩ : BufTy).Contents (Elt F)),
    binary main_arg0 main_v8 main_v9 ((fun x i => Host.gather gather_S16384x26x32_S325x1_S16384x325x32_02_1_n_n_1_1_16384132 x i) : (⟨S16384x26x32, .f32⟩ : BufTy).Contents (Elt F) → (⟨S325x1, .i32⟩ : BufTy).Contents (Elt F) → (⟨S16384x325x32, .f32⟩ : BufTy).Contents (Elt F)),
    binary main_v4 main_v9 main_v10 (mulf : (⟨S16384x325x32, .f32⟩ : BufTy).Contents (Elt F) → (⟨S16384x325x32, .f32⟩ : BufTy).Contents (Elt F) → (⟨S16384x325x32, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub ..,
   unary_bufs_sub .., binary_bufs_sub .., ternary_bufs_sub .., unary_bufs_sub .., binary_bufs_sub ..,
   nullary_bufs_sub .., unary_bufs_sub .., binary_bufs_sub .., ternary_bufs_sub .., unary_bufs_sub .., binary_bufs_sub ..,
   binary_bufs_sub ..⟩

/-- The [325, 1] column of start indices the program makes of a table of 325 words: the table with 26 added where the
    constant-false mask selects (nowhere), laid as a column. -/
abbrev indexColumn (tbl : Fin 325 → BitVec 32) : IVec S325x1 32 :=
  broadcastInDim S325x1 ![0] bcast_S325_S325x1_0
    (select (constantI S325 1 0#1)
      (addi (fun i => tbl (S325.rowMajor i)) (broadcastInDim S325 ![] bcast_S_S325 (constantI S_ 32 26#32)))
      (fun i => tbl (S325.rowMajor i)))

/-- The result as a function of the input: the product of the two gathers. -/
abbrev resultOf (x : FVec F S16384x26x32 .f32) : FVec F S16384x325x32 .f32 :=
  mulf (Host.gather fieldGather x (indexColumn lit0)) (Host.gather fieldGather x (indexColumn lit1))

/-- On every device, from any memory with zero counters: every weakly fair execution of @main terminates with the
    result at `resultOf` of the input and the input unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = resultOf (m ((c.tc : Thread nD τ).loc main_arg0))
      ∧ r.2.mem ((c.tc : Thread nD τ).loc main_arg0) = m ((c.tc : Thread nD τ).loc main_arg0) :=
  (θ_run defs _ _).mono (fun _ h c => ⟨(h c main_v10).trans (by after_results <;> rfl),
      (h c main_arg0).trans (by after_results)⟩)
    (run_seq scopedRefs_eq scopedSems_eq defs main (fun _ => ops) main_eq (fun _ => ops_sub) m ρ)

end Cert.ReferenceIdeal.HandRun

end
-- ==== Proof.LibGatherMiddle.lean ====
/-
  A gather along the MIDDLE axis of a rank-3 array, read at an index.

  `x[:, idx, :]` of an array `x : [N, K, D]` at a vector of K-positions `idx : [P]` lowers to a `stablehlo.gather`
  whose start indices are the [P, 1] column of positions, with offset axes 0 and 2 of the result, the operand's axis 1
  collapsed and start-indexed, no batching axes, the index vector on axis 1 of the column and slices [N, 1, D].
  Result entry (r, p, e) is the operand's entry (r, k, e), k the p-th start index read as a signed integer and clamped
  into [0, K − 1]: the outer coordinates r and e pass through as offsets, the middle one is looked up.
-/
import Idealize.ShloMosaic.Lib.ValueIdx

noncomputable section

namespace Idealize.ShloMosaic.GatherMiddle

open Idealize.ShloMosaic Idealize.ShloMosaic.ValueIdx

variable {α : Type} {N K D P w : Nat}

/-- A list entry named through an equal position. -/
theorem getElem_at_eq {β : Type} (l : List β) {i k : Nat} (e : i = k) (h : i < l.length) :
    l[i]'h = l[k]'(e ▸ h) := by subst e; rfl

section
variable (d : GatherDims ⟨3, ![N, K, D]⟩ ⟨2, ![P, 1]⟩ ⟨3, ![N, P, D]⟩)
    (hoff : d.offsetDims = [0, 2]) (hcoll : d.collapsedSliceDims = [1]) (hob : d.operandBatchingDims = [])
    (hsim : d.startIndexMap = [1]) (hivd : d.indexVectorDim = 1)
    (idx : IVec ⟨2, ![P, 1]⟩ w) (r : Fin N) (p : Fin P) (e : Fin D)

include hcoll hob in
/-- The operand's axes that carry offsets: the outer two. -/
theorem sKept_eq : d.sKept = [0, 2] := by
  show (List.finRange 3).filter (fun a => decide (a ∉ d.collapsedSliceDims ++ d.operandBatchingDims)) = [0, 2]
  rw [hcoll, hob]; rfl

include hoff in
/-- The result's one batch axis: the middle one. -/
theorem batchDims_eq : d.batchDims = [1] := by
  show (List.finRange 3).filter (fun a => decide (a ∉ d.offsetDims)) = [1]
  rw [hoff]; rfl

include hoff hcoll hob hsim in
/-- Axis 0 is an offset axis: the result's coordinate 0 passes through. -/
theorem operandIdx_0 : (d.operandIdx (ix3 r p e) idx (0 : Fin 3)).val = r.val := by
  have hsk := sKept_eq d hcoll hob
  have hb : (0 : Fin 3) ∉ d.operandBatchingDims := by rw [hob]; exact List.not_mem_nil
  have hm : (0 : Fin 3) ∉ d.startIndexMap := by rw [hsim]; simp
  have hk : (0 : Fin 3) ∈ d.sKept := by rw [hsk]; simp
  have hi : d.sKept.idxOf (0 : Fin 3) = 0 := by rw [hsk]; rfl
  show d.start (ix3 r p e) idx 0 + d.batchCoord (ix3 r p e) 0 + d.offCoord (ix3 r p e) 0 = _
  rw [GatherDims.batchCoord_eq_zero _ _ _ hb, Nat.add_zero]
  unfold GatherDims.start GatherDims.offCoord
  rw [dif_neg hm, dif_pos hk, Nat.zero_add]
  rw [getElem_at_eq d.offsetDims hi]
  have ho : d.offsetDims[0]'(by rw [hoff]; simp) = (0 : Fin 3) := by simp only [hoff]; rfl
  rw [ho]

include hoff hcoll hob hsim in
/-- Axis 2 is an offset axis: the result's coordinate 2 passes through. -/
theorem operandIdx_2 : (d.operandIdx (ix3 r p e) idx (2 : Fin 3)).val = e.val := by
  have hsk := sKept_eq d hcoll hob
  have hb : (2 : Fin 3) ∉ d.operandBatchingDims := by rw [hob]; exact List.not_mem_nil
  have hm : (2 : Fin 3) ∉ d.startIndexMap := by rw [hsim]; simp
  have hk : (2 : Fin 3) ∈ d.sKept := by rw [hsk]; simp
  have hi : d.sKept.idxOf (2 : Fin 3) = 1 := by rw [hsk]; rfl
  show d.start (ix3 r p e) idx 2 + d.batchCoord (ix3 r p e) 2 + d.offCoord (ix3 r p e) 2 = _
  rw [GatherDims.batchCoord_eq_zero _ _ _ hb, Nat.add_zero]
  unfold GatherDims.start GatherDims.offCoord
  rw [dif_neg hm, dif_pos hk, Nat.zero_add]
  rw [getElem_at_eq d.offsetDims hi]
  have ho : d.offsetDims[1]'(by rw [hoff]; simp) = (2 : Fin 3) := by simp only [hoff]; rfl
  rw [ho]

include hoff hsim hivd in
/-- The start-indices entry that result position (r, p, e) reads for the looked-up axis: row p of the column. -/
theorem siIdx_eq (c : Fin d.startIndexMap.length) : d.siIdx (ix3 r p e) c = ix2 p (0 : Fin 1) := by
  funext b
  match b with
  | ⟨0, _⟩ =>
    unfold GatherDims.siIdx
    rw [dif_neg (by simp [hivd])]
    unfold GatherDims.siCoord
    apply Fin.ext
    simp only [Fin.val_cast]
    have hall : ∀ X ∈ d.batchDims, X = (1 : Fin 3) := fun X hX => by
      rw [batchDims_eq d hoff] at hX; exact List.mem_singleton.mp hX
    rw [hall _ (List.getElem_mem _)]
  | ⟨1, _⟩ =>
    unfold GatherDims.siIdx
    rw [dif_pos (by rw [hivd])]
    apply Fin.ext
    have hl : d.startIndexMap.length = 1 := by rw [hsim]; rfl
    have hc := c.isLt
    show c.val = 0
    omega

include hoff hcoll hob hsim hivd in
/-- Axis 1 is collapsed and looked up: the p-th start index, signed, clamped into the axis. -/
theorem operandIdx_1 :
    (d.operandIdx (ix3 r p e) idx (1 : Fin 3)).val = min (idx (ix2 p (0 : Fin 1))).toInt.toNat (K - 1) := by
  have hsk := sKept_eq d hcoll hob
  have hb : (1 : Fin 3) ∉ d.operandBatchingDims := by rw [hob]; exact List.not_mem_nil
  have hm : (1 : Fin 3) ∈ d.startIndexMap := by rw [hsim]; simp
  have hk : (1 : Fin 3) ∉ d.sKept := by rw [hsk]; simp
  have hsl : d.sliceSizes 1 = 1 := d.slice_collapsed 1 (by rw [hcoll]; simp)
  show d.start (ix3 r p e) idx 1 + d.batchCoord (ix3 r p e) 1 + d.offCoord (ix3 r p e) 1 = _
  rw [GatherDims.batchCoord_eq_zero _ _ _ hb, GatherDims.offCoord_eq_zero _ _ _ hk]
  simp only [Nat.add_zero]
  unfold GatherDims.start
  rw [dif_pos hm, siIdx_eq d hoff hsim hivd r p e]
  show min (idx _).toInt.toNat (K - d.sliceSizes 1) = _
  rw [hsl]

end

/-- The gather read at (r, p, e): the operand at (r, clamp (idx p), e). -/
theorem gather_middle_apply (d : GatherDims ⟨3, ![N, K, D]⟩ ⟨2, ![P, 1]⟩ ⟨3, ![N, P, D]⟩)
    (hoff : d.offsetDims = [0, 2]) (hcoll : d.collapsedSliceDims = [1]) (hob : d.operandBatchingDims = [])
    (hsim : d.startIndexMap = [1]) (hivd : d.indexVectorDim = 1) (hK : 0 < K)
    (x : (⟨3, ![N, K, D]⟩ : Shape).Idx → α) (idx : IVec ⟨2, ![P, 1]⟩ w) (r : Fin N) (p : Fin P) (e : Fin D) :
    Host.gather d x idx (ix3 r p e)
      = x (ix3 r ⟨min (idx (ix2 p (0 : Fin 1))).toInt.toNat (K - 1), by omega⟩ e) := by
  unfold Host.gather
  congr 1
  funext a
  apply Fin.ext
  match a with
  | ⟨0, _⟩ => exact operandIdx_0 d hoff hcoll hob hsim idx r p e
  | ⟨1, _⟩ => exact operandIdx_1 d hoff hcoll hob hsim hivd idx r p e
  | ⟨2, _⟩ => exact operandIdx_2 d hoff hcoll hob hsim idx r p e

end Idealize.ShloMosaic.GatherMiddle

end
-- ==== Proof.RefValue.lean ====
/-
  The reference's result, index by index.

  The two tables of the reference hold, pair by pair, the smaller and the larger field of the pair: word p of the first
  is `pairFst p`, of the second `pairSnd p`, both already inside [0, 25], so the gather's signed reading and clamp
  change nothing. The negative-index wrap in front of each gather selects by a mask that is constantly false, so the
  start-index column is the table itself. A gather of the input along its field axis at such a column reads, at
  (r, p, e), the input at (r, field p, e); the product of the two gathers is `pairProd`.
-/
import proofs.«128253_j6700148981881_1_alg».proof.Proof.RefRun
import proofs.«128253_j6700148981881_1_alg».proof.Proof.LibGatherMiddle
import proofs.«128253_j6700148981881_1_alg».proof.Proof.PairSpec

noncomputable section

namespace Cert.ReferenceIdeal.RefValue

open Idealize.ShloMosaic Idealize.ShloMosaic.ValueIdx Idealize.ShloMosaic.GatherMiddle
open Cert.ReferenceIdeal Cert.ReferenceIdeal.Gen Cert.ReferenceIdeal.HandRun Cert.PairProducts

/-- Word p of the first table, read signed and clamped into the field axis, is the pair's smaller field. -/
theorem start_fst : ∀ p : Fin 325, min (lit0 p).toInt.toNat (26 - 1) = pairFst p.val := by decide +kernel
/-- Word p of the second table, read signed and clamped into the field axis, is the pair's larger field. -/
theorem start_snd : ∀ p : Fin 325, min (lit1 p).toInt.toNat (26 - 1) = pairSnd p.val := by decide +kernel

/-- Row p of the start-index column is word p of its table: the mask of the wrap is constantly false, so the select
    keeps the table, and the broadcast to a column keeps position p. -/
theorem indexColumn_apply (tbl : Fin 325 → BitVec 32) (p : Fin 325) :
    indexColumn tbl (ix2 p (0 : Fin 1)) = tbl p := by
  have hsel : ∀ (a b : IVec S325 32) (j : S325.Idx), select (constantI S325 1 0#1) a b j = b j :=
    fun a b j => select_zero _ _
  unfold indexColumn broadcastInDim
  rw [hsel]
  show tbl (S325.rowMajor _) = tbl p
  congr 1
  apply Fin.ext
  rw [Shape.rowMajor_val_one]
  rw [dif_neg (by decide)]
  rfl

/-- The first gather at (r, p, e): the input at (r, smaller field of pair p, e). -/
theorem gather_fst (x : FVec Ideal S16384x26x32 .f32) (r : Fin 16384) (p : Fin 325) (e : Fin 32) :
    Host.gather fieldGather x (indexColumn lit0) (ix3 r p e) = x (ix3 r (fstField p) e) := by
  refine (gather_middle_apply fieldGather rfl rfl rfl rfl rfl (by decide) x (indexColumn lit0) r p e).trans ?_
  congr 2
  apply Fin.ext
  show min (indexColumn lit0 (ix2 p (0 : Fin 1))).toInt.toNat (26 - 1) = pairFst p.val
  rw [indexColumn_apply]; exact start_fst p

/-- The second gather at (r, p, e): the input at (r, larger field of pair p, e). -/
theorem gather_snd (x : FVec Ideal S16384x26x32 .f32) (r : Fin 16384) (p : Fin 325) (e : Fin 32) :
    Host.gather fieldGather x (indexColumn lit1) (ix3 r p e) = x (ix3 r (sndField p) e) := by
  refine (gather_middle_apply fieldGather rfl rfl rfl rfl rfl (by decide) x (indexColumn lit1) r p e).trans ?_
  congr 2
  apply Fin.ext
  show min (indexColumn lit1 (ix2 p (0 : Fin 1))).toInt.toNat (26 - 1) = pairSnd p.val
  rw [indexColumn_apply]; exact start_snd p

/-- The reference's result is the pairwise field products of its input. -/
theorem result_eq (x : FVec Ideal S16384x26x32 .f32) : resultOf (F := Ideal) x = pairProd x := by
  funext j
  obtain ⟨r, p, e, rfl⟩ : ∃ (r : Fin 16384) (p : Fin 325) (e : Fin 32), j = ix3 r p e := ⟨j 0, j 1, j 2, eq_ix3 j⟩
  show Host.gather fieldGather x (indexColumn lit0) (ix3 r p e) * Host.gather fieldGather x (indexColumn lit1) (ix3 r p e) = _
  rw [gather_fst, gather_snd]
  rfl

end Cert.ReferenceIdeal.RefValue

end
-- ==== Proof.lean ====
/-
  The pairwise field products of a batch of rows: the kernel against its reference.

  The input is [16384, 26, 32]: 16384 rows of 26 fields of 32 numbers. Both programs return [16384, 325, 32]: for every
  row and every unordered pair of fields {i, j}, i < j — the 325 pairs in the row-major order of the strict upper
  triangle — the elementwise product of field i and field j.

  The reference gathers the input twice along the field axis, at the table of first fields and at the table of second
  fields, and multiplies the two gathered arrays. The kernel flattens each row to 832 numbers, and per block of 512
  rows stores, for each pair, the product of the two 32-column slices of the block at columns 32·i and 32·j into columns
  [32·p, 32·p + 32) of the output block; the output rows of 10400 numbers are then read as [325, 32].

  At the ideal instance both results are, entry by entry, the same product x(r, i_p, d) · x(r, j_p, d) of the same two
  input entries (`Cert.PairProducts.pairProd`): no law of arithmetic is needed, only that the two programs name the
  same entries, so the precondition (finite inputs) is never opened.

  The frames of the two kernel programs are their frame runs; the reference's frame is its run with the result
  dropped; the idealization rewrote nothing, so it preserves the program trivially.
-/
import proofs.«128253_j6700148981881_1_alg».proof.Defs
import proofs.«128253_j6700148981881_1_alg».proof.Proof.Gen.Kernel
import proofs.«128253_j6700148981881_1_alg».proof.Proof.Gen.KernelIdeal
import proofs.«128253_j6700148981881_1_alg».proof.Proof.Gen.ReferenceIdeal
import proofs.«128253_j6700148981881_1_alg».proof.Proof.Gen.Pre_finite_inputs
import proofs.«128253_j6700148981881_1_alg».proof.Proof.KernelFrame
import proofs.«128253_j6700148981881_1_alg».proof.Proof.KernelValue
import proofs.«128253_j6700148981881_1_alg».proof.Proof.RefValue
import Idealize.ShloMosaic.Adequacy
import Idealize.ShloMosaic.Init

noncomputable section

namespace Cert.Proof

open Idealize.ShloMosaic Idealize.SL.Sem Cert.PairProducts

theorem frame_kernel : @Cert.frame_Kernel Cert.Kernel.Gen.facts Cert.Pre_finite_inputs.Gen.facts :=
  fun m ρ _ => Cert.Kernel.GenP.frame m ρ

theorem frame_kernelIdeal : @Cert.frame_KernelIdeal Cert.KernelIdeal.Gen.facts Cert.Pre_finite_inputs.Gen.facts :=
  fun m ρ _ => Cert.KernelIdeal.GenP.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.HandRun.run (F := Ideal) m ρ)

/-- Both programs end at the pairwise field products of the (agreeing) inputs. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => pairProd (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
